-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S2 .f32) (main_v48 : IVec S_ 1) (main_v49 : FVec F S64x2 .f32) (main_v50 : FVec F S64x2 .f32) : IVec S_ 1 :=
  let main_v51 : IVec S64x2 1 := cmpf .olt main_v49 main_v50
  let main_c_19 : IVec S_ 1 := constantI S_ 1 1#1
  let main_v52 : IVec S_ 1 := (fun x v => Host.reduce IntOp.andi x v reducesTo_S64x2_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg8 : FVec F S128x64 .f32) (main_arg9 : FVec F S128x64 .f32) (main_arg10 : FVec F S64 .f32) (main_arg11 : FVec F S64x2 .f32) (main_arg12 : FVec F S2 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x2 .f32 := Host.absf main_arg11
  let main_cst_18 : FVec F S_ .f32 := constant S_ .f32 0x7F800000#32
  let main_v50 : FVec F S64x2 .f32 := broadcastInDim S64x2 ![] bcast_S_S64x2 main_cst_18
  fn_part3 (F := F) main_arg12 main_v48 main_v49 main_v50

def fn_part1 {F : FTy → Type} [FloatOps F] (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_arg11 : FVec F S64x2 .f32) (main_arg12 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x96 .f32) (main_arg1 : IVec S2x800000 32) (main_arg2 : FVec F S96x128 .f32) (main_arg3 : FVec F S96x128 .f32) (main_arg4 : FVec F S128 .f32) (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_arg11 : FVec F S64x2 .f32) (main_arg12 : FVec F S2 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x128 .f32 := Host.absf main_arg2
  let main_cst_0 : FVec F S_ .f32 := constant S_ .f32 0x7F800000#32
  let main_v5 : FVec F S96x128 .f32 := broadcastInDim S96x128 ![] bcast_S_S96x128 main_cst_0
  let main_v6 : IVec S96x128 1 := cmpf .olt main_v4 main_v5
  let main_c_1 : IVec S_ 1 := constantI S_ 1 1#1
  let main_v7 : IVec S_ 1 := (fun x v => Host.reduce IntOp.andi x v reducesTo_S96x128_S_d0_1 h_S_) main_v6 main_c_1
  let main_v8 : IVec S_ 1 := andi main_v3 main_v7
  let main_v9 : FVec F S96x128 .f32 := Host.absf main_arg3
  let main_cst_2 : FVec F S_ .f32 := constant S_ .f32 0x7F800000#32
  let main_v10 : FVec F S96x128 .f32 := broadcastInDim S96x128 ![] bcast_S_S96x128 main_cst_2
  let main_v11 : IVec S96x128 1 := cmpf .olt main_v9 main_v10
  let main_c_3 : IVec S_ 1 := constantI S_ 1 1#1
  let main_v12 : IVec S_ 1 := (fun x v => Host.reduce IntOp.andi x v reducesTo_S96x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x96 : Shape := ⟨2, ![800000, 96]⟩
abbrev S50000x128 : Shape := ⟨2, ![50000, 128]⟩
abbrev S5000x96 : Shape := ⟨2, ![5000, 96]⟩
abbrev S5000x128 : Shape := ⟨2, ![5000, 128]⟩
abbrev S1x128 : Shape := ⟨2, ![1, 128]⟩
abbrev S800000x128 : Shape := ⟨2, ![800000, 128]⟩
abbrev S50000x2 : Shape := ⟨2, ![50000, 2]⟩
abbrev S5000x2 : Shape := ⟨2, ![5000, 2]⟩
abbrev S5000x64 : Shape := ⟨2, ![5000, 64]⟩
abbrev S1x64 : Shape := ⟨2, ![1, 64]⟩
abbrev S1x2 : Shape := ⟨2, ![1, 2]⟩

abbrev nBuf : Space → Nat
  | .hbm => 77
  | .vmem => 29
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x128, .f32⟩
  | .hbm, ⟨3, _⟩ => ⟨S96x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S64x2, .f32⟩
  | .hbm, ⟨12, _⟩ => ⟨S2, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000x1, .f32⟩
  | .hbm, ⟨19, _⟩ => ⟨S_, .f32⟩
  | .hbm, ⟨20, _⟩ => ⟨S50000x1, .f32⟩
  | .hbm, ⟨21, _⟩ => ⟨S800000x1, .i32⟩
  | .hbm, ⟨22, _⟩ => ⟨S50000x1, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S_, .f32⟩
  | .hbm, ⟨27, _⟩ => ⟨S50000x1, .f32⟩
  | .hbm, ⟨28, _⟩ => ⟨S50000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x96, .f32⟩
  | .hbm, ⟨38, _⟩ => ⟨S_, .f32⟩
  | .hbm, ⟨39, _⟩ => ⟨S50000x96, .f32⟩
  | .hbm, ⟨40, _⟩ => ⟨S800000x1, .i32⟩
  | .hbm, ⟨41, _⟩ => ⟨S50000x96, .f32⟩
  | .hbm, ⟨42, _⟩ => ⟨S50000x96, .f32⟩
  | .hbm, ⟨43, _⟩ => ⟨S50000x96, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x2, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x128, .f32⟩
  | .local _ .vmem, ⟨5, _⟩ => ⟨S96x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S64, .f32⟩
  | .local _ .vmem, ⟨25, _⟩ => ⟨S64x2, .f32⟩
  | .local _ .vmem, ⟨26, _⟩ => ⟨S2, .f32⟩
  | .local _ .vmem, ⟨27, _⟩ => ⟨S5000x2, .f32⟩
  | .local _ .vmem, ⟨28, _⟩ => ⟨S5000x2, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x96 : S_.BroadcastsInDim S50000x96 (![] : Fin 0 → Fin S50000x96.rank)
  bcast_S50000x1_S50000x96_0_1 : S50000x1.BroadcastsInDim S50000x96 (![0, 1] : Fin 2 → Fin S50000x96.rank)
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x128_S96x128_0_0 : ∀ a, (![0, 0] : Fin 2 → Nat) a + S96x128.size a ≤ S96x128.size a
  h_S96x128 : 0 < S96x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000x1_S800000x1_S800000x1_1_0_0_1_wf : ScatterDims.WF S50000x1 S800000x1 S800000x1 [1] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x128_S5000x128_1_0_0_1_n_n_wf : DotDims.WF S5000x96 S96x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x128.size a ≤ S96x128.size a
  hwx0_2 : ∀ i : grid0.Coords, EltTy.bits .f32 = 32 ∨ (Rect.block (s := S96x128) S96x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x128.size a ≤ S96x128.size a
  hwx0_3 : ∀ i : grid0.Coords, EltTy.bits .f32 = 32 ∨ (Rect.block (s := S96x128) S96x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x2.size a ≤ S64x2.size a
  hwx2_5 : ∀ i : grid2.Coords, EltTy.bits .f32 = 32 ∨ (Rect.block (s := S64x2) S64x2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S2.size a ≤ S2.size a
  hwx2_6 : ∀ i : grid2.Coords, EltTy.bits .f32 = 32 ∨ (Rect.block (s := S2) S2.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x2.size a ≤ S50000x2.size a
  hwx2_7 : ∀ i : grid2.Coords, EltTy.bits .f32 = 32 ∨ (Rect.block (s := S50000x2) S5000x2.size (cc2_transform_7 i) (hinb2_7 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v23) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S96x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S96x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v50) S5000x2.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S50000x64 : Shape := ⟨2, ![50000, 64]⟩
abbrev S1x64 : Shape := ⟨2, ![1, 64]⟩
abbrev S50000x2 : Shape := ⟨2, ![50000, 2]⟩
abbrev S1x2 : Shape := ⟨2, ![1, 2]⟩

abbrev nBuf : Space → Nat
  | .hbm => 120
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x128, .f32⟩
  | .hbm, ⟨3, _⟩ => ⟨S96x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S64x2, .f32⟩
  | .hbm, ⟨12, _⟩ => ⟨S2, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x96, .f32⟩
  | .hbm, ⟨26, _⟩ => ⟨S_, .f32⟩
  | .hbm, ⟨27, _⟩ => ⟨S50000x96, .f32⟩
  | .hbm, ⟨28, _⟩ => ⟨S800000x1, .i32⟩
  | .hbm, ⟨29, _⟩ => ⟨S50000x96, .f32⟩
  | .hbm, ⟨30, _⟩ => ⟨S_, .f32⟩
  | .hbm, ⟨31, _⟩ => ⟨S800000x1, .f32⟩
  | .hbm, ⟨32, _⟩ => ⟨S_, .f32⟩
  | .hbm, ⟨33, _⟩ => ⟨S50000x1, .f32⟩
  | .hbm, ⟨34, _⟩ => ⟨S800000x1, .i32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x96, .f32⟩
  | .hbm, ⟨40, _⟩ => ⟨S50000x96, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000x1, .f32⟩
  | .hbm, ⟨65, _⟩ => ⟨S_, .f32⟩
  | .hbm, ⟨66, _⟩ => ⟨S50000x1, .f32⟩
  | .hbm, ⟨67, _⟩ => ⟨S800000x1, .i32⟩
  | .hbm, ⟨68, _⟩ => ⟨S50000x1, .f32⟩
  | .hbm, ⟨69, _⟩ => ⟨S_, .f32⟩
  | .hbm, ⟨70, _⟩ => ⟨S50000x1, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S_, .f32⟩
  | .hbm, ⟨97, _⟩ => ⟨S800000x1, .f32⟩
  | .hbm, ⟨98, _⟩ => ⟨S_, .f32⟩
  | .hbm, ⟨99, _⟩ => ⟨S50000x1, .f32⟩
  | .hbm, ⟨100, _⟩ => ⟨S800000x1, .i32⟩
  | .hbm, ⟨101, _⟩ => ⟨S50000x1, .f32⟩
  | .hbm, ⟨102, _⟩ => ⟨S_, .f32⟩
  | .hbm, ⟨103, _⟩ => ⟨S50000x1, .f32⟩
  | .hbm, ⟨104, _⟩ => ⟨S50000x1, .f32⟩
  | .hbm, ⟨105, _⟩ => ⟨S50000x128, .f32⟩
  | .hbm, ⟨106, _⟩ => ⟨S50000x128, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S1x64, .f32⟩
  | .hbm, ⟨111, _⟩ => ⟨S50000x64, .f32⟩
  | .hbm, ⟨112, _⟩ => ⟨S50000x64, .f32⟩
  | .hbm, ⟨113, _⟩ => ⟨S_, .f32⟩
  | .hbm, ⟨114, _⟩ => ⟨S50000x64, .f32⟩
  | .hbm, ⟨115, _⟩ => ⟨S50000x64, .f32⟩
  | .hbm, ⟨116, _⟩ => ⟨S50000x2, .f32⟩
  | .hbm, ⟨117, _⟩ => ⟨S1x2, .f32⟩
  | .hbm, ⟨118, _⟩ => ⟨S50000x2, .f32⟩
  | .hbm, ⟨119, _⟩ => ⟨S50000x2, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_cst : Ref sig .tc := ⟨.hbm, 47, rfl⟩
abbrev main_call0_v0 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call1_cst : Ref sig .tc := ⟨.hbm, 80, rfl⟩
abbrev main_call1_v0 : Ref sig .tc := ⟨.hbm, 81, rfl⟩
abbrev main_v53 : Ref sig .tc := ⟨.hbm, 82, rfl⟩
abbrev main_c_10 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_cst_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_15 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_call2_cst : Ref sig .tc := ⟨.hbm, 113, rfl⟩
abbrev main_call2_v0 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000x1_S800000x1_S800000x1_1_0_0_1_wf : ScatterDims.WF S50000x1 S800000x1 S800000x1 [1] [0] [0] 1
  dot_S50000x96_S96x128_S50000x128_1_0_0_1_n_n_wf : DotDims.WF S50000x96 S96x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x64_S64x2_S50000x2_1_0_0_1_n_n_wf : DotDims.WF S50000x64 S64x2 S50000x2 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.SageIdx.lean ====
/-
  One graph-convolution layer, entry by entry, over the extended reals.

  A layer takes the neighbourhood mean and the node features, both rows-by-inner, two weight matrices
  inner-by-columns and a bias of one entry per column. Its entry at (row, column) is the sum over the inner
  index of mean(row, k) * Wl(k, column), plus the same sum for the features and Wr, plus the bias at the
  column, and then the maximum of that with the value of the zero word. The classifier head is one such sum
  plus a bias, without the maximum. Both are stated for any extents.
-/
import Idealize.ShloMosaic.Lib.ValueIdx
import Idealize.ShloMosaic.PureOps.Ideal.Laws

noncomputable section

namespace Cert.Sage

open Idealize.ShloMosaic Idealize.ShloMosaic.ValueIdx

variable {M K N : Nat}

/-- The sum over the inner index of a row of `A` against a column of `B`. -/
def rowCol (A : (⟨2, ![M, K]⟩ : Shape).Idx → EReal) (B : (⟨2, ![K, N]⟩ : Shape).Idx → EReal)
    (j : (⟨2, ![M, N]⟩ : Shape).Idx) : EReal :=
  ∑ k : Fin K, A (ix2 (j 0) k) * B (ix2 k (j 1))

/-- A rectified layer: the mean's product with `Wl`, plus the features' product with `Wr`, plus the bias of the
    column, and the maximum of that with the value of the zero word. -/
def layerAt (mean x : (⟨2, ![M, K]⟩ : Shape).Idx → EReal) (Wl Wr : (⟨2, ![K, N]⟩ : Shape).Idx → EReal)
    (b : (⟨1, ![N]⟩ : Shape).Idx → EReal) : (⟨2, ![M, N]⟩ : Shape).Idx → EReal :=
  fun j => max ((rowCol mean Wl j + rowCol x Wr j) + b (ix1 (j 1))) (Ideal.ofBits .f32 0x00000000#32)

/-- The classifier head: the hidden features' product with `Wc` plus the bias of the column. -/
def headAt (h : (⟨2, ![M, K]⟩ : Shape).Idx → EReal) (Wc : (⟨2, ![K, N]⟩ : Shape).Idx → EReal)
    (bc : (⟨1, ![N]⟩ : Shape).Idx → EReal) : (⟨2, ![M, N]⟩ : Shape).Idx → EReal :=
  fun j => rowCol h Wc j + bc (ix1 (j 1))

/-- A layer's entry depends on the mean and the features only through the entry's own row: two pairs of arrays
    that agree on row `r` of one and row `r'` of the other give the same entry there. -/
theorem layerAt_congr_row {M' : Nat} (mean x : (⟨2, ![M, K]⟩ : Shape).Idx → EReal)
    (mean' x' : (⟨2, ![M', K]⟩ : Shape).Idx → EReal) (Wl Wr : (⟨2, ![K, N]⟩ : Shape).Idx → EReal)
    (b : (⟨1, ![N]⟩ : Shape).Idx → EReal) (r : Fin M) (r' : Fin M') (q : Fin N)
    (hm : ∀ k : Fin K, mean' (ix2 r' k) = mean (ix2 r k)) (hx : ∀ k : Fin K, x' (ix2 r' k) = x (ix2 r k)) :
    layerAt mean' x' Wl Wr b (ix2 r' q) = layerAt mean x Wl Wr b (ix2 r q) := by
  show max (((∑ k : Fin K, mean' (ix2 r' k) * Wl (ix2 k q)) + (∑ k : Fin K, x' (ix2 r' k) * Wr (ix2 k q))) + b (ix1 q)) _
      = max (((∑ k : Fin K, mean (ix2 r k) * Wl (ix2 k q)) + (∑ k : Fin K, x (ix2 r k) * Wr (ix2 k q))) + b (ix1 q)) _
  simp only [hm, hx]

/-- The head's entry depends on the hidden features only through the entry's own row. -/
theorem headAt_congr_row {M' : Nat} (h : (⟨2, ![M, K]⟩ : Shape).Idx → EReal)
    (h' : (⟨2, ![M', K]⟩ : Shape).Idx → EReal) (Wc : (⟨2, ![K, N]⟩ : Shape).Idx → EReal)
    (bc : (⟨1, ![N]⟩ : Shape).Idx → EReal) (r : Fin M) (r' : Fin M') (q : Fin N)
    (hh : ∀ k : Fin K, h' (ix2 r' k) = h (ix2 r k)) :
    headAt h' Wc bc (ix2 r' q) = headAt h Wc bc (ix2 r q) := by
  show (∑ k : Fin K, h' (ix2 r' k) * Wc (ix2 k q)) + bc (ix1 q) = (∑ k : Fin K, h (ix2 r k) * Wc (ix2 k q)) + bc (ix1 q)
  simp only [hh]

/-! ## The three layers and the head, the neighbourhood aggregation left as a parameter

  `agg₁` turns the 96 input features of every node into the mean over its in-neighbours, `agg₂` does the same for
  128 hidden features. Both programs compute the network below; they differ only in how they spell the aggregation. -/

section Net

variable (agg₁ : ((⟨2, ![50000, 96]⟩ : Shape).Idx → EReal) → ((⟨2, ![50000, 96]⟩ : Shape).Idx → EReal))
  (agg₂ : ((⟨2, ![50000, 128]⟩ : Shape).Idx → EReal) → ((⟨2, ![50000, 128]⟩ : Shape).Idx → EReal))
  (x : (⟨2, ![50000, 96]⟩ : Shape).Idx → EReal)
  (Wl1 Wr1 : (⟨2, ![96, 128]⟩ : Shape).Idx → EReal) (b1 : (⟨1, ![128]⟩ : Shape).Idx → EReal)
  (Wl2 Wr2 : (⟨2, ![128, 128]⟩ : Shape).Idx → EReal) (b2 : (⟨1, ![128]⟩ : Shape).Idx → EReal)
  (Wl3 Wr3 : (⟨2, ![128, 64]⟩ : Shape).Idx → EReal) (b3 : (⟨1, ![64]⟩ : Shape).Idx → EReal)
  (Wc : (⟨2, ![64, 2]⟩ : Shape).Idx → EReal) (bc : (⟨1, ![2]⟩ : Shape).Idx → EReal)

/-- The first hidden layer: 96 features in, 128 out. -/
def hid1 : (⟨2, ![50000, 128]⟩ : Shape).Idx → EReal := layerAt (agg₁ x) x Wl1 Wr1 b1

/-- The second hidden layer over the first: 128 features in, 128 out. -/
def hid2 : (⟨2, ![50000, 128]⟩ : Shape).Idx → EReal :=
  layerAt (agg₂ (hid1 agg₁ x Wl1 Wr1 b1)) (hid1 agg₁ x Wl1 Wr1 b1) Wl2 Wr2 b2

/-- The network's output: the third layer (128 in, 64 out) over the second, then the head (64 in, 2 out). -/
def outAt : (⟨2, ![50000, 2]⟩ : Shape).Idx → EReal :=
  headAt (layerAt (agg₂ (hid2 agg₁ agg₂ x Wl1 Wr1 b1 Wl2 Wr2 b2)) (hid2 agg₁ agg₂ x Wl1 Wr1 b1 Wl2 Wr2 b2) Wl3 Wr3 b3) Wc bc

end Net

end Cert.Sage

end
-- ==== Proof.KernelHost.lean ====
/-
  The neighbourhood aggregation as the kernel program's host stretches spell it.

  A feature array `f` is aggregated as: the rows of `f` gathered at each edge's source node, scatter-added onto the
  edge's destination node, and the sum multiplied by the reciprocal of max (in-degree, 1), broadcast along the
  features. The in-degree is ones scatter-added onto the destinations. The source column first maps a negative index
  to the index counted from the end. Everything here is a definition over the program's own printed operations.
-/
import proofs.«125802_j15118284882426_1_alg».proof.Proof.Gen.KernelIdeal
import Idealize.ShloMosaic.PureOps.Ideal

noncomputable section

namespace Cert.KernelIdeal.Chain

open Cert.KernelIdeal Cert.KernelIdeal.Gen Idealize.ShloMosaic

/-- Row 0 of the edge list: each edge's source node. -/
def srcRow (e : IVec S2x800000 32) : IVec S800000 32 :=
  shapeCast S800000 (extractStridedSlice S1x800000 ![0, 0] e slices_S2x800000_S1x800000_0_0) shapeCasts_S1x800000_S800000

/-- Row 1 of the edge list: each edge's destination node. -/
def dstRow (e : IVec S2x800000 32) : IVec S800000 32 :=
  shapeCast S800000 (extractStridedSlice S1x800000 ![1, 0] e slices_S2x800000_S1x800000_1_0) shapeCasts_S1x800000_S800000

/-- The gather's index column: a negative source index counts from the end. -/
def srcB (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The scatter's index column. -/
def dstB (d : IVec S800000 32) : IVec S800000x1 32 :=
  broadcastInDim S800000x1 ![0] bcast_S800000_S800000x1_0 d

/-- Each node's in-degree, at least one: ones scattered onto the destinations, then the maximum with one. -/
def degree (d : IVec S800000 32) : FVec Ideal S50000x1 .f32 :=
  maximumf (Host.scatterAdd scatter_S50000x1_S800000x1_S800000x1_1_0_0_1
      (broadcastInDim S50000x1 ![] bcast_S_S50000x1 (constant S_ .f32 0x00000000#32)) (dstB d)
      (broadcastInDim S800000x1 ![] bcast_S_S800000x1 (constant S_ .f32 0x3F800000#32)))
    (broadcastInDim S50000x1 ![] bcast_S_S50000x1 (constant S_ .f32 0x3F800000#32))

/-- One over that degree. -/
def recip (d : IVec S800000 32) : FVec Ideal S50000x1 .f32 :=
  Host.divf (broadcastInDim S50000x1 ![] bcast_S_S50000x1 (constant S_ .f32 0x3F800000#32)) (degree d)

/-- The sum, per destination node, of the 96 features of its in-neighbours. -/
def sum96 (s d : IVec S800000 32) (f : FVec Ideal S50000x96 .f32) :
    FVec Ideal S50000x96 .f32 :=
  Host.scatterAdd scatter_S50000x96_S800000x1_S800000x96_1_0_0_1
    (broadcastInDim S50000x96 ![] bcast_S_S50000x96 (constant S_ .f32 0x00000000#32)) (dstB d)
    (Host.gather gather_S50000x96_S800000x1_S800000x96_1_0_n_n_0_1_196 f (srcB s))

/-- The same for 128 features. -/
def sum128 (s d : IVec S800000 32) (f : FVec Ideal S50000x128 .f32) :
    FVec Ideal S50000x128 .f32 :=
  Host.scatterAdd scatter_S50000x128_S800000x1_S800000x128_1_0_0_1
    (broadcastInDim S50000x128 ![] bcast_S_S50000x128 (constant S_ .f32 0x00000000#32)) (dstB d)
    (Host.gather gather_S50000x128_S800000x1_S800000x128_1_0_n_n_0_1_1128 f (srcB s))

/-- The mean as this program spells it: the sum times a reciprocal `iv` broadcast along the features. -/
def agg96 (s d : IVec S800000 32) (iv : FVec Ideal S50000x1 .f32)
    (f : FVec Ideal S50000x96 .f32) : FVec Ideal S50000x96 .f32 :=
  mulf (sum96 s d f) (broadcastInDim S50000x96 ![0, 1] bcast_S50000x1_S50000x96_0_1 iv)

def agg128 (s d : IVec S800000 32) (iv : FVec Ideal S50000x1 .f32)
    (f : FVec Ideal S50000x128 .f32) : FVec Ideal S50000x128 .f32 :=
  mulf (sum128 s d f) (broadcastInDim S50000x128 ![0, 1] bcast_S50000x1_S50000x128_0_1 iv)

end Cert.KernelIdeal.Chain

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.RegionVal0.lean ====
/-
  The first layer's output array after the ten points of its grid.

  Each point t stores one block of 5000 rows: the maximum, with the value of the zero word, of the mean block's
  product with the first weight matrix plus the feature block's product with the second plus the bias of the column.
  The mean and feature blocks of point t are rows 5000 * t + p of their arrays, the weights and the bias are whole
  arrays, and an entry of a layer depends on the mean and the features only through its own row; so what point t
  writes back is rows 5000 * t + p of the layer of the whole arrays. Every row r of the output lies in the block of
  point r / 5000, and every point writes back, so the output array ends holding the layer of the whole arrays.
-/
import proofs.«125802_j15118284882426_1_alg».proof.Proof.FrameKI
import proofs.«125802_j15118284882426_1_alg».proof.Proof.SageIdx
import proofs.«125802_j15118284882426_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.RegVal
open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-! ## The stored value at an index -/

/-- The printed contraction record of a 5000-by-96 times 96-by-128 product is the plain one. -/
theorem dot0_eq : dot_S5000x96_S96x128_S5000x128_1_0_0_1_n_n = DotDims.plain 5000 96 128 := rfl

/-- A bias of one entry per column, viewed as one row and repeated down the rows, reads at (p, q) the bias at q. -/
theorem bias0_apply (b : Vec Ideal S128 .f32) (p : Fin 5000) (q : Fin 128) :
    broadcastTo S5000x128 (shapeCast S1x128 b shapeCasts_S128_S1x128) broadcasts_S1x128_S5000x128 (ix2 p q) = b (ix1 q) := by
  refine (broadcastTo_1b_ab_apply (a := 5000) (b := 128) _ _ p q).trans ?_
  refine (shapeCast_addUnit_apply ![128] b shapeCasts_S128_S1x128 (ix2 (0 : Fin 1) q)).trans ?_
  exact congrArg b (funext fun a => by match a with | ⟨0, _⟩ => rfl)

/-- The stored value is the tree of operations of the loaded blocks. -/
theorem pay0_eq (x0 x1 : Vec Ideal S5000x96 .f32) (x2 x3 : Vec Ideal S96x128 .f32) (x4 : Vec Ideal S128 .f32) :
    k0_pay1 (F := Ideal) x0 x1 x2 x3 x4
      = maximumf (F := Ideal) (addf (F := Ideal) (addf (F := Ideal)
          (matmul (F := Ideal) dot_S5000x96_S96x128_S5000x128_1_0_0_1_n_n none
            (truncf (F := Ideal) (φ := .f32) .bf16 (shapeCast S5000x96 x0 shapeCasts_S5000x96_S5000x96) bitsLt_bf16_f32)
            (truncf (F := Ideal) (φ := .f32) .bf16 x2 bitsLt_bf16_f32)
            (constant (F := Ideal) S5000x128 .f32 0x00000000#32))
          (matmul (F := Ideal) dot_S5000x96_S96x128_S5000x128_1_0_0_1_n_n none
            (truncf (F := Ideal) (φ := .f32) .bf16 x1 bitsLt_bf16_f32) (truncf (F := Ideal) (φ := .f32) .bf16 x3 bitsLt_bf16_f32)
            (constant (F := Ideal) S5000x128 .f32 0x00000000#32)))
          (broadcastTo S5000x128 (shapeCast S1x128 x4 shapeCasts_S128_S1x128) broadcasts_S1x128_S5000x128))
        (broadcast S5000x128 (Scalar.ofBits (F := Ideal) .f32 0x00000000#32)) := rfl

/-- The stored value at (p, q): the two sums over the inner index, the bias of the column, and the maximum with the
    value of the zero word. A change of float format is the identity on extended reals. -/
theorem pay0_apply (x0 x1 : Vec Ideal S5000x96 .f32) (x2 x3 : Vec Ideal S96x128 .f32) (x4 : Vec Ideal S128 .f32)
    (p : Fin 5000) (q : Fin 128) :
    k0_pay1 (F := Ideal) x0 x1 x2 x3 x4 (ix2 p q)
      = Cert.Sage.layerAt (M := 5000) (K := 96) (N := 128) x0 x1 x2 x3 x4 (ix2 p q) := by
  rw [pay0_eq, shapeCast_self, dot0_eq]
  show max ((FloatOps.matmul (F := Ideal) (DotDims.plain 5000 96 128) none
              (truncf (F := Ideal) (φ := .f32) .bf16 x0 bitsLt_bf16_f32) (truncf (F := Ideal) (φ := .f32) .bf16 x2 bitsLt_bf16_f32)
              (constant (F := Ideal) (⟨2, ![5000, 128]⟩ : Shape) .f32 0x00000000#32) (ix2 p q)
            + FloatOps.matmul (F := Ideal) (DotDims.plain 5000 96 128) none
              (truncf (F := Ideal) (φ := .f32) .bf16 x1 bitsLt_bf16_f32) (truncf (F := Ideal) (φ := .f32) .bf16 x3 bitsLt_bf16_f32)
              (constant (F := Ideal) (⟨2, ![5000, 128]⟩ : Shape) .f32 0x00000000#32) (ix2 p q))
            + broadcastTo S5000x128 (shapeCast S1x128 x4 shapeCasts_S128_S1x128) broadcasts_S1x128_S5000x128 (ix2 p q))
          (Ideal.ofBits .f32 0x00000000#32) = _
  rw [Cert.PlainDot.matmul_zero_apply, Cert.PlainDot.matmul_zero_apply, bias0_apply]
  rfl

/-! ## What a point writes back -/

theorem zeros2_0 : (![0, 0] : Fin 2 → Nat) = fun _ => 0 := funext fun a => by match a with | ⟨0, _⟩ => rfl | ⟨1, _⟩ => rfl
theorem zeros1_0 : (![0] : Fin 1 → Nat) = fun _ => 0 := funext fun a => by match a with | ⟨0, _⟩ => rfl

/-- The block indices over the grid: the mean, feature and output blocks of point t are block t on the row axis and
    block 0 on the other; the weights and the bias are block 0 on every axis. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem point_lt0 (t : Fin cfg0.N) : t.val < 10 := Nat.lt_of_lt_of_eq t.isLt N_0

/-- Two functions on a 5000-by-128 block that agree at every (p, q) are equal. -/
theorem block_ext0 {α : Type} (f g : S5000x128.Idx → α) (h : ∀ (p : Fin 5000) (q : Fin 128), f (ix2 p q) = g (ix2 p q)) : f = g :=
  funext fun y => by rw [eq_ix2 y]; exact h _ _

/-- The mean block of point t at (p, k) is the mean array at row 5000 * t + p. -/
theorem blk0_0_apply (c : Dev nD) (t : Fin cfg0.N) (p : Fin 5000) (k : Fin 96) :
    iblk0 V c 0 t (ix2 p k) = V c main_v23 (ix2 (⟨t.val * 5000 + p.val, by have := point_lt0 t; omega⟩ : Fin 50000) k) := by
  obtain ⟨e00, e01, -⟩ := idx_facts0 t
  show V c main_v23 (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 96 + 1 * k.val = k.val; omega

/-- The feature block of point t at (p, k) is the feature array at row 5000 * t + p. -/
theorem blk0_1_apply (c : Dev nD) (t : Fin cfg0.N) (p : Fin 5000) (k : Fin 96) :
    iblk0 V c 1 t (ix2 p k) = V c main_arg0 (ix2 (⟨t.val * 5000 + p.val, by have := point_lt0 t; omega⟩ : Fin 50000) k) := by
  obtain ⟨-, -, e10, e11, -⟩ := idx_facts0 t
  show V c main_arg0 (((cfg0.win 1).blk t).view.emb (ix2 p k)) = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 96 + 1 * k.val = k.val; omega

/-- The first weight window's block is its whole array at every point. -/
theorem blk0_2_eq (c : Dev nD) (t : Fin cfg0.N) : iblk0 V c 2 t = V c main_arg2 := by
  obtain ⟨-, -, -, -, e20, e21, -⟩ := idx_facts0 t
  funext j
  obtain ⟨a, b, rfl⟩ : ∃ (a : Fin 96) (b : Fin 128), j = ix2 a b := ⟨j 0, j 1, eq_ix2 j⟩
  show V c main_arg2 (((cfg0.win 2).blk t).view.emb (ix2 a b)) = V c main_arg2 (ix2 a b)
  refine congrArg _ (funext fun ax => Fin.ext ?_)
  match ax with
  | ⟨0, _⟩ => show win0_2.index t (0 : Fin 2) * 96 + 1 * a.val = a.val; omega
  | ⟨1, _⟩ => show win0_2.index t (1 : Fin 2) * 128 + 1 * b.val = b.val; omega

/-- The second weight window's block is its whole array at every point. -/
theorem blk0_3_eq (c : Dev nD) (t : Fin cfg0.N) : iblk0 V c 3 t = V c main_arg3 := by
  obtain ⟨-, -, -, -, -, -, e30, e31, -⟩ := idx_facts0 t
  funext j
  obtain ⟨a, b, rfl⟩ : ∃ (a : Fin 96) (b : Fin 128), j = ix2 a b := ⟨j 0, j 1, eq_ix2 j⟩
  show V c main_arg3 (((cfg0.win 3).blk t).view.emb (ix2 a b)) = V c main_arg3 (ix2 a b)
  refine congrArg _ (funext fun ax => Fin.ext ?_)
  match ax with
  | ⟨0, _⟩ => show win0_3.index t (0 : Fin 2) * 96 + 1 * a.val = a.val; omega
  | ⟨1, _⟩ => show win0_3.index t (1 : Fin 2) * 128 + 1 * b.val = b.val; omega

/-- The bias window's block is its whole array at every point. -/
theorem blk0_4_eq (c : Dev nD) (t : Fin cfg0.N) : iblk0 V c 4 t = V c main_arg4 := by
  obtain ⟨-, -, -, -, -, -, -, -, e40, -⟩ := idx_facts0 t
  funext j
  obtain ⟨a, rfl⟩ : ∃ (a : Fin 128), j = ix1 a := ⟨j 0, eq_ix1 j⟩
  show V c main_arg4 (((cfg0.win 4).blk t).view.emb (ix1 a)) = V c main_arg4 (ix1 a)
  refine congrArg _ (funext fun ax => Fin.ext ?_)
  match ax with
  | ⟨0, _⟩ => show win0_4.index t (0 : Fin 1) * 128 + 1 * a.val = a.val; omega

/-- What point t writes back is block t of the layer of the whole arrays. -/
theorem flushed0_eq (c : Dev nD) (t : Fin cfg0.N) :
    (dat0 (F := Ideal) V c).flushed 5 t
      = ((cfg0.win 5).blk t).view.read (Elt Ideal)
          (Cert.Sage.layerAt (M := 50000) (K := 96) (N := 128) (V c main_v23) (V c main_arg0) (V c main_arg2) (V c main_arg3) (V c main_arg4)) := by
  show (cfg0.win 5).cut (grid0.coords t) ((dat0 V c).after 5 t) = _
  rw [after0_5]
  unfold out0_5
  rw [View.canon_unit_zero zeros2_0]
  simp only [View.ld_unit_zero (S := S5000x96) zeros2_0, View.ld_unit_zero (S := S96x128) zeros2_0, View.ld_unit_zero (S := S128) zeros1_0]
  rw [blk0_2_eq, blk0_3_eq, blk0_4_eq]
  obtain ⟨-, -, -, -, -, -, -, -, -, e50, e51⟩ := idx_facts0 t
  refine block_ext0 _ _ fun p q => ?_
  have hemb : ((cfg0.win 5).blk t).view.emb (ix2 p q)
      = ix2 (⟨t.val * 5000 + p.val, by have := point_lt0 t; omega⟩ : Fin 50000) q := by
    refine funext fun a => Fin.ext ?_
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (F := Ideal) (iblk0 V c 0 t) (iblk0 V c 1 t) (V c main_arg2) (V c main_arg3) (V c main_arg4) (ix2 p q)
      = Cert.Sage.layerAt (M := 50000) (K := 96) (N := 128) (V c main_v23) (V c main_arg0) (V c main_arg2) (V c main_arg3) (V c main_arg4)
          (((cfg0.win 5).blk t).view.emb (ix2 p q))
  rw [hemb, pay0_apply]
  exact Cert.Sage.layerAt_congr_row _ _ _ _ _ _ _ _ p q (fun k => blk0_0_apply V c t p k) (fun k => blk0_1_apply V c t p k)

/-! ## The cover, and the array after the run -/

/-- An index of the output array is in point t's block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Row r of the output array lies in the block of point r / 5000, and that point writes back. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 5000 < cfg0.N := by show _ < grid0.N; rw [N_0]; omega
  obtain ⟨-, -, -, -, -, -, -, -, -, e50, e51⟩ := idx_facts0 ⟨(i 0).val / 5000, hN⟩
  have e50' : win0_5.index ⟨(i 0).val / 5000, hN⟩ (0 : Fin 2) = (i 0).val / 5000 := e50
  refine ⟨⟨(i 0).val / 5000, hN⟩, flush0_5 _, ?_⟩
  rw [mem_blk0]
  intro a
  match a with
  | ⟨0, _⟩ => show win0_5.index ⟨(i 0).val / 5000, hN⟩ (0 : Fin 2) * 5000 ≤ (i 0).val ∧ (i 0).val < win0_5.index ⟨(i 0).val / 5000, hN⟩ (0 : Fin 2) * 5000 + 5000; omega
  | ⟨1, _⟩ => show win0_5.index ⟨(i 0).val / 5000, hN⟩ (1 : Fin 2) * 128 ≤ (i 1).val ∧ (i 1).val < win0_5.index ⟨(i 0).val / 5000, hN⟩ (1 : Fin 2) * 128 + 128; omega

/-- The output array after the ten points: the layer of the arrays the region finds. -/
theorem final0 (c : Dev nD) :
    (dat0 (F := Ideal) V c).arrAt 5 cfg0.N
      = Cert.Sage.layerAt (M := 50000) (K := 96) (N := 128) (V c main_v23) (V c main_arg0) (V c main_arg2) (V c main_arg3) (V c main_arg4) :=
  (dat0 V c).arrAt_eq_of_cover 5 _ (fun t _ => flushed0_eq V c t) (fun i => cover0 i)

end Cert.KernelIdeal.RegVal
end
-- ==== Proof.RegionVal1.lean ====
/-
  The second layer's output array after the ten points of its grid.

  Each point t stores one block of 5000 rows: the maximum, with the value of the zero word, of the mean block's
  product with the first weight matrix plus the feature block's product with the second plus the bias of the column.
  The mean and feature blocks of point t are rows 5000 * t + p of their arrays, the weights and the bias are whole
  arrays, and an entry of a layer depends on the mean and the features only through its own row; so what point t
  writes back is rows 5000 * t + p of the layer of the whole arrays. Every row r of the output lies in the block of
  point r / 5000, and every point writes back, so the output array ends holding the layer of the whole arrays.
-/
import proofs.«125802_j15118284882426_1_alg».proof.Proof.FrameKI
import proofs.«125802_j15118284882426_1_alg».proof.Proof.SageIdx
import proofs.«125802_j15118284882426_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.RegVal
open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-! ## The stored value at an index -/

/-- The printed contraction record of a 5000-by-128 times 128-by-128 product is the plain one. -/
theorem dot1_eq : dot_S5000x128_S128x128_S5000x128_1_0_0_1_n_n = DotDims.plain 5000 128 128 := rfl

/-- A bias of one entry per column, viewed as one row and repeated down the rows, reads at (p, q) the bias at q. -/
theorem bias1_apply (b : Vec Ideal S128 .f32) (p : Fin 5000) (q : Fin 128) :
    broadcastTo S5000x128 (shapeCast S1x128 b shapeCasts_S128_S1x128) broadcasts_S1x128_S5000x128 (ix2 p q) = b (ix1 q) := by
  refine (broadcastTo_1b_ab_apply (a := 5000) (b := 128) _ _ p q).trans ?_
  refine (shapeCast_addUnit_apply ![128] b shapeCasts_S128_S1x128 (ix2 (0 : Fin 1) q)).trans ?_
  exact congrArg b (funext fun a => by match a with | ⟨0, _⟩ => rfl)

/-- The stored value is the tree of operations of the loaded blocks. -/
theorem pay1_eq (x0 x1 : Vec Ideal S5000x128 .f32) (x2 x3 : Vec Ideal S128x128 .f32) (x4 : Vec Ideal S128 .f32) :
    k1_pay1 (F := Ideal) x0 x1 x2 x3 x4
      = maximumf (F := Ideal) (addf (F := Ideal) (addf (F := Ideal)
          (matmul (F := Ideal) dot_S5000x128_S128x128_S5000x128_1_0_0_1_n_n none
            (truncf (F := Ideal) (φ := .f32) .bf16 (shapeCast S5000x128 x0 shapeCasts_S5000x128_S5000x128) bitsLt_bf16_f32)
            (truncf (F := Ideal) (φ := .f32) .bf16 x2 bitsLt_bf16_f32)
            (constant (F := Ideal) S5000x128 .f32 0x00000000#32))
          (matmul (F := Ideal) dot_S5000x128_S128x128_S5000x128_1_0_0_1_n_n none
            (truncf (F := Ideal) (φ := .f32) .bf16 (shapeCast S5000x128 x1 shapeCasts_S5000x128_S5000x128) bitsLt_bf16_f32)
            (truncf (F := Ideal) (φ := .f32) .bf16 x3 bitsLt_bf16_f32)
            (constant (F := Ideal) S5000x128 .f32 0x00000000#32)))
          (broadcastTo S5000x128 (shapeCast S1x128 x4 shapeCasts_S128_S1x128) broadcasts_S1x128_S5000x128))
        (broadcast S5000x128 (Scalar.ofBits (F := Ideal) .f32 0x00000000#32)) := rfl

/-- The stored value at (p, q): the two sums over the inner index, the bias of the column, and the maximum with the
    value of the zero word. A change of float format is the identity on extended reals. -/
theorem pay1_apply (x0 x1 : Vec Ideal S5000x128 .f32) (x2 x3 : Vec Ideal S128x128 .f32) (x4 : Vec Ideal S128 .f32)
    (p : Fin 5000) (q : Fin 128) :
    k1_pay1 (F := Ideal) x0 x1 x2 x3 x4 (ix2 p q)
      = Cert.Sage.layerAt (M := 5000) (K := 128) (N := 128) x0 x1 x2 x3 x4 (ix2 p q) := by
  rw [pay1_eq, shapeCast_self, shapeCast_self, dot1_eq]
  show max ((FloatOps.matmul (F := Ideal) (DotDims.plain 5000 128 128) none
              (truncf (F := Ideal) (φ := .f32) .bf16 x0 bitsLt_bf16_f32) (truncf (F := Ideal) (φ := .f32) .bf16 x2 bitsLt_bf16_f32)
              (constant (F := Ideal) (⟨2, ![5000, 128]⟩ : Shape) .f32 0x00000000#32) (ix2 p q)
            + FloatOps.matmul (F := Ideal) (DotDims.plain 5000 128 128) none
              (truncf (F := Ideal) (φ := .f32) .bf16 x1 bitsLt_bf16_f32) (truncf (F := Ideal) (φ := .f32) .bf16 x3 bitsLt_bf16_f32)
              (constant (F := Ideal) (⟨2, ![5000, 128]⟩ : Shape) .f32 0x00000000#32) (ix2 p q))
            + broadcastTo S5000x128 (shapeCast S1x128 x4 shapeCasts_S128_S1x128) broadcasts_S1x128_S5000x128 (ix2 p q))
          (Ideal.ofBits .f32 0x00000000#32) = _
  rw [Cert.PlainDot.matmul_zero_apply, Cert.PlainDot.matmul_zero_apply, bias1_apply]
  rfl

/-! ## What a point writes back -/

theorem zeros2_1 : (![0, 0] : Fin 2 → Nat) = fun _ => 0 := funext fun a => by match a with | ⟨0, _⟩ => rfl | ⟨1, _⟩ => rfl
theorem zeros1_1 : (![0] : Fin 1 → Nat) = fun _ => 0 := funext fun a => by match a with | ⟨0, _⟩ => rfl

/-- The block indices over the grid: the mean, feature and output blocks of point t are block t on the row axis and
    block 0 on the other; the weights and the bias are block 0 on every axis. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem point_lt1 (t : Fin cfg1.N) : t.val < 10 := Nat.lt_of_lt_of_eq t.isLt N_1

/-- Two functions on a 5000-by-128 block that agree at every (p, q) are equal. -/
theorem block_ext1 {α : Type} (f g : S5000x128.Idx → α) (h : ∀ (p : Fin 5000) (q : Fin 128), f (ix2 p q) = g (ix2 p q)) : f = g :=
  funext fun y => by rw [eq_ix2 y]; exact h _ _

/-- The mean block of point t at (p, k) is the mean array at row 5000 * t + p. -/
theorem blk1_0_apply (c : Dev nD) (t : Fin cfg1.N) (p : Fin 5000) (k : Fin 128) :
    iblk1 V c 0 t (ix2 p k) = V c main_v36 (ix2 (⟨t.val * 5000 + p.val, by have := point_lt1 t; omega⟩ : Fin 50000) k) := by
  obtain ⟨e00, e01, -⟩ := idx_facts1 t
  show V c main_v36 (((cfg1.win 0).blk t).view.emb (ix2 p k)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The feature block of point t at (p, k) is the feature array at row 5000 * t + p. -/
theorem blk1_1_apply (c : Dev nD) (t : Fin cfg1.N) (p : Fin 5000) (k : Fin 128) :
    iblk1 V c 1 t (ix2 p k) = V c main_v24 (ix2 (⟨t.val * 5000 + p.val, by have := point_lt1 t; omega⟩ : Fin 50000) k) := by
  obtain ⟨-, -, e10, e11, -⟩ := idx_facts1 t
  show V c main_v24 (((cfg1.win 1).blk t).view.emb (ix2 p k)) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- The first weight window's block is its whole array at every point. -/
theorem blk1_2_eq (c : Dev nD) (t : Fin cfg1.N) : iblk1 V c 2 t = V c main_arg5 := by
  obtain ⟨-, -, -, -, e20, e21, -⟩ := idx_facts1 t
  funext j
  obtain ⟨a, b, rfl⟩ : ∃ (a : Fin 128) (b : Fin 128), j = ix2 a b := ⟨j 0, j 1, eq_ix2 j⟩
  show V c main_arg5 (((cfg1.win 2).blk t).view.emb (ix2 a b)) = V c main_arg5 (ix2 a b)
  refine congrArg _ (funext fun ax => Fin.ext ?_)
  match ax with
  | ⟨0, _⟩ => show win1_2.index t (0 : Fin 2) * 128 + 1 * a.val = a.val; omega
  | ⟨1, _⟩ => show win1_2.index t (1 : Fin 2) * 128 + 1 * b.val = b.val; omega

/-- The second weight window's block is its whole array at every point. -/
theorem blk1_3_eq (c : Dev nD) (t : Fin cfg1.N) : iblk1 V c 3 t = V c main_arg6 := by
  obtain ⟨-, -, -, -, -, -, e30, e31, -⟩ := idx_facts1 t
  funext j
  obtain ⟨a, b, rfl⟩ : ∃ (a : Fin 128) (b : Fin 128), j = ix2 a b := ⟨j 0, j 1, eq_ix2 j⟩
  show V c main_arg6 (((cfg1.win 3).blk t).view.emb (ix2 a b)) = V c main_arg6 (ix2 a b)
  refine congrArg _ (funext fun ax => Fin.ext ?_)
  match ax with
  | ⟨0, _⟩ => show win1_3.index t (0 : Fin 2) * 128 + 1 * a.val = a.val; omega
  | ⟨1, _⟩ => show win1_3.index t (1 : Fin 2) * 128 + 1 * b.val = b.val; omega

/-- The bias window's block is its whole array at every point. -/
theorem blk1_4_eq (c : Dev nD) (t : Fin cfg1.N) : iblk1 V c 4 t = V c main_arg7 := by
  obtain ⟨-, -, -, -, -, -, -, -, e40, -⟩ := idx_facts1 t
  funext j
  obtain ⟨a, rfl⟩ : ∃ (a : Fin 128), j = ix1 a := ⟨j 0, eq_ix1 j⟩
  show V c main_arg7 (((cfg1.win 4).blk t).view.emb (ix1 a)) = V c main_arg7 (ix1 a)
  refine congrArg _ (funext fun ax => Fin.ext ?_)
  match ax with
  | ⟨0, _⟩ => show win1_4.index t (0 : Fin 1) * 128 + 1 * a.val = a.val; omega

/-- What point t writes back is block t of the layer of the whole arrays. -/
theorem flushed1_eq (c : Dev nD) (t : Fin cfg1.N) :
    (dat1 (F := Ideal) V c).flushed 5 t
      = ((cfg1.win 5).blk t).view.read (Elt Ideal)
          (Cert.Sage.layerAt (M := 50000) (K := 128) (N := 128) (V c main_v36) (V c main_v24) (V c main_arg5) (V c main_arg6) (V c main_arg7)) := by
  show (cfg1.win 5).cut (grid1.coords t) ((dat1 V c).after 5 t) = _
  rw [after1_5]
  unfold out1_5
  rw [View.canon_unit_zero zeros2_1]
  simp only [View.ld_unit_zero (S := S5000x128) zeros2_1, View.ld_unit_zero (S := S128x128) zeros2_1, View.ld_unit_zero (S := S128) zeros1_1]
  rw [blk1_2_eq, blk1_3_eq, blk1_4_eq]
  obtain ⟨-, -, -, -, -, -, -, -, -, e50, e51⟩ := idx_facts1 t
  refine block_ext1 _ _ fun p q => ?_
  have hemb : ((cfg1.win 5).blk t).view.emb (ix2 p q)
      = ix2 (⟨t.val * 5000 + p.val, by have := point_lt1 t; omega⟩ : Fin 50000) q := by
    refine funext fun a => Fin.ext ?_
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (F := Ideal) (iblk1 V c 0 t) (iblk1 V c 1 t) (V c main_arg5) (V c main_arg6) (V c main_arg7) (ix2 p q)
      = Cert.Sage.layerAt (M := 50000) (K := 128) (N := 128) (V c main_v36) (V c main_v24) (V c main_arg5) (V c main_arg6) (V c main_arg7)
          (((cfg1.win 5).blk t).view.emb (ix2 p q))
  rw [hemb, pay1_apply]
  exact Cert.Sage.layerAt_congr_row _ _ _ _ _ _ _ _ p q (fun k => blk1_0_apply V c t p k) (fun k => blk1_1_apply V c t p k)

/-! ## The cover, and the array after the run -/

/-- An index of the output array is in point t's block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v37).slice (win1_5.rect t)).set ↔ _
  rw [View.set_slice_whole, Rect.mem_set_unit]
  exact Iff.rfl

/-- Row r of the output array lies in the block of point r / 5000, and that point writes back. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 5000 < cfg1.N := by show _ < grid1.N; rw [N_1]; omega
  obtain ⟨-, -, -, -, -, -, -, -, -, e50, e51⟩ := idx_facts1 ⟨(i 0).val / 5000, hN⟩
  have e50' : win1_5.index ⟨(i 0).val / 5000, hN⟩ (0 : Fin 2) = (i 0).val / 5000 := e50
  refine ⟨⟨(i 0).val / 5000, hN⟩, flush1_5 _, ?_⟩
  rw [mem_blk1]
  intro a
  match a with
  | ⟨0, _⟩ => show win1_5.index ⟨(i 0).val / 5000, hN⟩ (0 : Fin 2) * 5000 ≤ (i 0).val ∧ (i 0).val < win1_5.index ⟨(i 0).val / 5000, hN⟩ (0 : Fin 2) * 5000 + 5000; omega
  | ⟨1, _⟩ => show win1_5.index ⟨(i 0).val / 5000, hN⟩ (1 : Fin 2) * 128 ≤ (i 1).val ∧ (i 1).val < win1_5.index ⟨(i 0).val / 5000, hN⟩ (1 : Fin 2) * 128 + 128; omega

/-- The output array after the ten points: the layer of the arrays the region finds. -/
theorem final1 (c : Dev nD) :
    (dat1 (F := Ideal) V c).arrAt 5 cfg1.N
      = Cert.Sage.layerAt (M := 50000) (K := 128) (N := 128) (V c main_v36) (V c main_v24) (V c main_arg5) (V c main_arg6) (V c main_arg7) :=
  (dat1 V c).arrAt_eq_of_cover 5 _ (fun t _ => flushed1_eq V c t) (fun i => cover1 i)

end Cert.KernelIdeal.RegVal
end
-- ==== Proof.RegionVal2.lean ====
/-
  The third region's result array, entry by entry, over the extended reals.

  Each of the ten points of the region's grid takes rows 5000 t .. 5000 t + 4999 of the aggregated mean and of the
  hidden features, the whole of the three weight matrices and the two biases, and stores one block of 5000 rows by
  2 columns. The stored block is the classifier head over the rectified third layer of its rows; an entry of either
  depends on the mean and the features only through its own row, so the block stored at point t is rows
  5000 t .. 5000 t + 4999 of the head over the layer of the whole arrays. The ten blocks tile the result array.
-/
import proofs.«125802_j15118284882426_1_alg».proof.Proof.FrameKI
import proofs.«125802_j15118284882426_1_alg».proof.Proof.SageIdx
import proofs.«125802_j15118284882426_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.RegVal
open Cert.KernelIdeal Cert.KernelIdeal.Gen Idealize.ShloMosaic Idealize.ShloMosaic.TcCoe Idealize.SL.Sem Idealize.ShloMosaic.ValueIdx
variable (V : (c : Dev nD) → (b : Ref sig .tc) → Buf (Elt Ideal) ((c : Thread nD τ).loc b))

/-! ## The stored block at an entry -/

/-- The contraction of the third layer is the plain rows-by-inner times inner-by-columns one. -/
theorem dotL_r2 : dot_S5000x128_S128x64_S5000x64_1_0_0_1_n_n = DotDims.plain 5000 128 64 := rfl

/-- So is the head's. -/
theorem dotH_r2 : dot_S5000x64_S64x2_S5000x2_1_0_0_1_n_n = DotDims.plain 5000 64 2 := rfl

/-- A bias of one entry per column, given a leading unit axis and repeated over the rows, reads at (row, column)
    the bias at the column. -/
theorem bias_apply_r2 {M N : Nat} (b : (⟨1, ![N]⟩ : Shape).Idx → EReal)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo (⟨2, ![M, N]⟩ : Shape) (shapeCast (⟨2, ![1, N]⟩ : Shape) b h1) h2 (ix2 p q) = b (ix1 q) := by
  rw [broadcastTo_1b_ab_apply]
  refine (shapeCast_addUnit_apply (n := 1) ![N] b h1 (ix2 (0 : Fin 1) q)).trans ?_
  refine congrArg b (funext fun a => ?_)
  match a with
  | ⟨0, _⟩ => rfl

/-- Two products into zero accumulators added, the bias added to every row, and the maximum with the zero word:
    a rectified layer. The change of float format of the operands is the identity on extended reals. -/
theorem layer_fun_r2 {M K N : Nat} (D : DotDims ⟨2, ![M, K]⟩ ⟨2, ![K, N]⟩ ⟨2, ![M, N]⟩) (hD : D = DotDims.plain M K N)
    (hb : FTy.bits .bf16 < FTy.bits .f32)
    (x0 x1 : FVec Ideal ⟨2, ![M, K]⟩ .f32) (x2 x3 : FVec Ideal ⟨2, ![K, N]⟩ .f32) (x4 : FVec Ideal ⟨1, ![N]⟩ .f32)
    (h1 : (⟨1, ![N]⟩ : Shape).ShapeCasts ⟨2, ![1, N]⟩) (h2 : (⟨2, ![1, N]⟩ : Shape).Broadcasts ⟨2, ![M, N]⟩) :
    maximumf
        (addf
          (addf (matmul D none (truncf .bf16 x0 hb) (truncf .bf16 x2 hb) (constant (⟨2, ![M, N]⟩ : Shape) .f32 0x00000000#32))
            (matmul D none (truncf .bf16 x1 hb) (truncf .bf16 x3 hb) (constant (⟨2, ![M, N]⟩ : Shape) .f32 0x00000000#32)))
          (broadcastTo (⟨2, ![M, N]⟩ : Shape) (shapeCast (⟨2, ![1, N]⟩ : Shape) x4 h1) h2))
        (broadcast (⟨2, ![M, N]⟩ : Shape) (Scalar.ofBits (F := Ideal) .f32 0x00000000#32))
      = Cert.Sage.layerAt x0 x1 x2 x3 x4 := by
  subst hD
  funext j
  obtain ⟨p, q, rfl⟩ : ∃ (p : Fin M) (q : Fin N), j = ix2 p q := ⟨j 0, j 1, eq_ix2 j⟩
  show max
      ((FloatOps.matmul (DotDims.plain M K N) none (truncf .bf16 x0 hb) (truncf .bf16 x2 hb)
            (constant (⟨2, ![M, N]⟩ : Shape) .f32 0x00000000#32) (ix2 p q)
          + FloatOps.matmul (DotDims.plain M K N) none (truncf .bf16 x1 hb) (truncf .bf16 x3 hb)
            (constant (⟨2, ![M, N]⟩ : Shape) .f32 0x00000000#32) (ix2 p q))
        + broadcastTo (⟨2, ![M, N]⟩ : Shape) (shapeCast (⟨2, ![1, N]⟩ : Shape) x4 h1) h2 (ix2 p q))
      (Ideal.ofBits .f32 0x00000000#32) = _
  rw [Cert.PlainDot.matmul_zero_apply, Cert.PlainDot.matmul_zero_apply, bias_apply_r2]
  rfl

/-- One product into a zero accumulator with the bias added to every row: the head. -/
theorem head_fun_r2 {M K N : Nat} (D : DotDims ⟨2, ![M, K]⟩ ⟨2, ![K, N]⟩ ⟨2, ![M, N]⟩) (hD : D = DotDims.plain M K N)
    (hb : FTy.bits .bf16 < FTy.bits .f32)
    (hd : FVec Ideal ⟨2, ![M, K]⟩ .f32) (Wc : FVec Ideal ⟨2, ![K, N]⟩ .f32) (bc : FVec Ideal ⟨1, ![N]⟩ .f32)
    (h1 : (⟨1, ![N]⟩ : Shape).ShapeCasts ⟨2, ![1, N]⟩) (h2 : (⟨2, ![1, N]⟩ : Shape).Broadcasts ⟨2, ![M, N]⟩) :
    addf (matmul D none (truncf .bf16 hd hb) (truncf .bf16 Wc hb) (constant (⟨2, ![M, N]⟩ : Shape) .f32 0x00000000#32))
        (broadcastTo (⟨2, ![M, N]⟩ : Shape) (shapeCast (⟨2, ![1, N]⟩ : Shape) bc h1) h2)
      = Cert.Sage.headAt hd Wc bc := by
  subst hD
  funext j
  obtain ⟨p, q, rfl⟩ : ∃ (p : Fin M) (q : Fin N), j = ix2 p q := ⟨j 0, j 1, eq_ix2 j⟩
  show FloatOps.matmul (DotDims.plain M K N) none (truncf .bf16 hd hb) (truncf .bf16 Wc hb)
        (constant (⟨2, ![M, N]⟩ : Shape) .f32 0x00000000#32) (ix2 p q)
      + broadcastTo (⟨2, ![M, N]⟩ : Shape) (shapeCast (⟨2, ![1, N]⟩ : Shape) bc h1) h2 (ix2 p q) = _
  rw [Cert.PlainDot.matmul_zero_apply, bias_apply_r2]
  rfl

/-- The stored block at (row, column): the head over the rectified layer of the loaded blocks. -/
theorem pay_r2 (x0 x1 : Vec Ideal S5000x128 .f32) (x2 x3 : Vec Ideal S128x64 .f32) (x4 : Vec Ideal S64 .f32)
    (x5 : Vec Ideal S64x2 .f32) (x6 : Vec Ideal S2 .f32) (p : Fin 5000) (q : Fin 2) :
    k2_pay1 (F := Ideal) x0 x1 x2 x3 x4 x5 x6 (ix2 p q)
      = Cert.Sage.headAt (M := 5000) (K := 64) (N := 2)
          (Cert.Sage.layerAt (M := 5000) (K := 128) (N := 64) x0 x1 x2 x3 x4) x5 x6 (ix2 p q) := by
  unfold k2_pay1
  simp only [shapeCast_self]
  refine (congrFun (head_fun_r2 dot_S5000x64_S64x2_S5000x2_1_0_0_1_n_n dotH_r2 bitsLt_bf16_f32 _ x5 x6
    shapeCasts_S2_S1x2 broadcasts_S1x2_S5000x2) (ix2 p q)).trans ?_
  refine congrArg (fun hd => Cert.Sage.headAt (M := 5000) (K := 64) (N := 2) hd x5 x6 (ix2 p q)) ?_
  exact layer_fun_r2 dot_S5000x128_S128x64_S5000x64_1_0_0_1_n_n dotL_r2 bitsLt_bf16_f32 x0 x1 x2 x3 x4
    shapeCasts_S64_S1x64 broadcasts_S1x64_S5000x64

/-! ## The blocks the windows read, as rows of the arrays -/

theorem hz2_r2 : (![0, 0] : Fin 2 → Nat) = fun _ => 0 :=
  funext fun a => by match a with | ⟨0, _⟩ => rfl | ⟨1, _⟩ => rfl

theorem hz1_r2 : (![0] : Fin 1 → Nat) = fun _ => 0 :=
  funext fun a => by match a with | ⟨0, _⟩ => rfl

/-- The block indices over the grid: the mean, the features and the result move with the point along the rows and
    stay at column block 0; the weights and the biases stay at block 0. -/
theorem idx_facts_r2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- Row p of the mean's block at point t is row 5000 t + p of the mean. -/
theorem rows0_r2 (c : Dev nD) (t : Fin cfg2.N) (p : Fin 5000) (k : Fin 128) (hr : 5000 * t.val + p.val < 50000) :
    (iblk2 (F := Ideal) V c 0 t : S5000x128.Idx → EReal) (ix2 p k)
      = (V c main_v49 : S50000x128.Idx → EReal) (ix2 (⟨5000 * t.val + p.val, hr⟩ : Fin 50000) k) := by
  obtain ⟨e00, e01, -⟩ := idx_facts_r2 t
  show V c main_v49 (((cfg2.win 0).blk t).view.emb (ix2 p k)) = _
  refine congrArg (V c main_v49) (funext fun a => Fin.ext ?_)
  match a with
  | ⟨0, _⟩ => show win2_0.index t (0 : Fin 2) * 5000 + 1 * p.val = 5000 * t.val + p.val; omega
  | ⟨1, _⟩ => show win2_0.index t (1 : Fin 2) * 128 + 1 * k.val = k.val; omega

/-- Row p of the features' block at point t is row 5000 t + p of the features. -/
theorem rows1_r2 (c : Dev nD) (t : Fin cfg2.N) (p : Fin 5000) (k : Fin 128) (hr : 5000 * t.val + p.val < 50000) :
    (iblk2 (F := Ideal) V c 1 t : S5000x128.Idx → EReal) (ix2 p k)
      = (V c main_v37 : S50000x128.Idx → EReal) (ix2 (⟨5000 * t.val + p.val, hr⟩ : Fin 50000) k) := by
  obtain ⟨-, -, e10, e11, -⟩ := idx_facts_r2 t
  show V c main_v37 (((cfg2.win 1).blk t).view.emb (ix2 p k)) = _
  refine congrArg (V c main_v37) (funext fun a => Fin.ext ?_)
  match a with
  | ⟨0, _⟩ => show win2_1.index t (0 : Fin 2) * 5000 + 1 * p.val = 5000 * t.val + p.val; omega
  | ⟨1, _⟩ => show win2_1.index t (1 : Fin 2) * 128 + 1 * k.val = k.val; omega

/-- The block of the layer's first weight matrix is the matrix, at every point. -/
theorem wblk2_r2 (c : Dev nD) (t : Fin cfg2.N) :
    (iblk2 (F := Ideal) V c 2 t : S128x64.Idx → EReal) = V c main_arg8 := by
  obtain ⟨-, -, -, -, e0, e1, -⟩ := idx_facts_r2 t
  funext x
  show V c main_arg8 (((cfg2.win 2).blk t).view.emb x) = V c main_arg8 x
  refine congrArg (V c main_arg8) (funext fun a => Fin.ext ?_)
  match a with
  | ⟨0, _⟩ => show win2_2.index t (0 : Fin 2) * 128 + 1 * (x 0).val = (x 0).val; omega
  | ⟨1, _⟩ => show win2_2.index t (1 : Fin 2) * 64 + 1 * (x 1).val = (x 1).val; omega

/-- The block of the layer's second weight matrix is the matrix. -/
theorem wblk3_r2 (c : Dev nD) (t : Fin cfg2.N) :
    (iblk2 (F := Ideal) V c 3 t : S128x64.Idx → EReal) = V c main_arg9 := by
  obtain ⟨-, -, -, -, -, -, e0, e1, -⟩ := idx_facts_r2 t
  funext x
  show V c main_arg9 (((cfg2.win 3).blk t).view.emb x) = V c main_arg9 x
  refine congrArg (V c main_arg9) (funext fun a => Fin.ext ?_)
  match a with
  | ⟨0, _⟩ => show win2_3.index t (0 : Fin 2) * 128 + 1 * (x 0).val = (x 0).val; omega
  | ⟨1, _⟩ => show win2_3.index t (1 : Fin 2) * 64 + 1 * (x 1).val = (x 1).val; omega

/-- The block of the layer's bias is the bias. -/
theorem wblk4_r2 (c : Dev nD) (t : Fin cfg2.N) :
    (iblk2 (F := Ideal) V c 4 t : S64.Idx → EReal) = V c main_arg10 := by
  obtain ⟨-, -, -, -, -, -, -, -, e0, -⟩ := idx_facts_r2 t
  funext x
  show V c main_arg10 (((cfg2.win 4).blk t).view.emb x) = V c main_arg10 x
  refine congrArg (V c main_arg10) (funext fun a => Fin.ext ?_)
  match a with
  | ⟨0, _⟩ => show win2_4.index t (0 : Fin 1) * 64 + 1 * (x 0).val = (x 0).val; omega

/-- The block of the head's weight matrix is the matrix. -/
theorem wblk5_r2 (c : Dev nD) (t : Fin cfg2.N) :
    (iblk2 (F := Ideal) V c 5 t : S64x2.Idx → EReal) = V c main_arg11 := by
  obtain ⟨-, -, -, -, -, -, -, -, -, e0, e1, -⟩ := idx_facts_r2 t
  funext x
  show V c main_arg11 (((cfg2.win 5).blk t).view.emb x) = V c main_arg11 x
  refine congrArg (V c main_arg11) (funext fun a => Fin.ext ?_)
  match a with
  | ⟨0, _⟩ => show win2_5.index t (0 : Fin 2) * 64 + 1 * (x 0).val = (x 0).val; omega
  | ⟨1, _⟩ => show win2_5.index t (1 : Fin 2) * 2 + 1 * (x 1).val = (x 1).val; omega

/-- The block of the head's bias is the bias. -/
theorem wblk6_r2 (c : Dev nD) (t : Fin cfg2.N) :
    (iblk2 (F := Ideal) V c 6 t : S2.Idx → EReal) = V c main_arg12 := by
  obtain ⟨-, -, -, -, -, -, -, -, -, -, -, e0, -⟩ := idx_facts_r2 t
  funext x
  show V c main_arg12 (((cfg2.win 6).blk t).view.emb x) = V c main_arg12 x
  refine congrArg (V c main_arg12) (funext fun a => Fin.ext ?_)
  match a with
  | ⟨0, _⟩ => show win2_6.index t (0 : Fin 1) * 2 + 1 * (x 0).val = (x 0).val; omega

/-! ## From the blocks to the array -/

/-- The head over the layer at a row, when the mean and the features agree on that row with another pair's row and
    the weights and biases are the same: the entries agree. -/
theorem head_layer_congr_r2 {M M' : Nat}
    (A0 A1 : (⟨2, ![M, 128]⟩ : Shape).Idx → EReal) (B0 B1 : (⟨2, ![M', 128]⟩ : Shape).Idx → EReal)
    (W2 W3 W2' W3' : (⟨2, ![128, 64]⟩ : Shape).Idx → EReal) (b4 b4' : (⟨1, ![64]⟩ : Shape).Idx → EReal)
    (W5 W5' : (⟨2, ![64, 2]⟩ : Shape).Idx → EReal) (b6 b6' : (⟨1, ![2]⟩ : Shape).Idx → EReal)
    (r : Fin M) (r' : Fin M') (q : Fin 2)
    (h0 : ∀ k : Fin 128, B0 (ix2 r' k) = A0 (ix2 r k)) (h1 : ∀ k : Fin 128, B1 (ix2 r' k) = A1 (ix2 r k))
    (h2 : W2' = W2) (h3 : W3' = W3) (h4 : b4' = b4) (h5 : W5' = W5) (h6 : b6' = b6) :
    Cert.Sage.headAt (Cert.Sage.layerAt B0 B1 W2' W3' b4') W5' b6' (ix2 r' q)
      = Cert.Sage.headAt (Cert.Sage.layerAt A0 A1 W2 W3 b4) W5 b6 (ix2 r q) := by
  subst h2 h3 h4 h5 h6
  exact Cert.Sage.headAt_congr_row _ _ _ _ r r' q fun k =>
    Cert.Sage.layerAt_congr_row _ _ _ _ _ _ _ r r' k h0 h1

/-- The region's result: the head over the rectified third layer of the arrays as the region finds them. -/
abbrev G_r2 (c : Dev nD) : S50000x2.Idx → EReal :=
  Cert.Sage.headAt (M := 50000) (K := 64) (N := 2)
    (Cert.Sage.layerAt (M := 50000) (K := 128) (N := 64) (V c main_v49) (V c main_v37) (V c main_arg8) (V c main_arg9) (V c main_arg10))
    (V c main_arg11) (V c main_arg12)

/-- What point t writes back is block t of the result. -/
theorem flushed_r2 (c : Dev nD) (t : Fin cfg2.N) :
    (dat2 (F := Ideal) V c).flushed 7 t = ((cfg2.win 7).blk t).view.read (Elt Ideal) (G_r2 V c) := by
  show (cfg2.win 7).cut (grid2.coords t) ((dat2 V c).after 7 t) = _
  rw [after2_7]
  unfold out2_7
  rw [View.canon_unit_zero hz2_r2]
  simp only [View.ld_unit_zero (S := S5000x128) hz2_r2, View.ld_unit_zero (S := S128x64) hz2_r2,
    View.ld_unit_zero (S := S64) hz1_r2, View.ld_unit_zero (S := S64x2) hz2_r2, View.ld_unit_zero (S := S2) hz1_r2]
  refine funext fun (y : S5000x2.Idx) => ?_
  obtain ⟨p, q, rfl⟩ : ∃ (p : Fin 5000) (q : Fin 2), y = ix2 p q := ⟨y 0, y 1, eq_ix2 y⟩
  obtain ⟨-, -, -, -, -, -, -, -, -, -, -, -, e70, e71⟩ := idx_facts_r2 t
  have ht : t.val < 10 := lt_of_lt_of_eq t.isLt N_2
  have hr : 5000 * t.val + p.val < 50000 := by have := p.isLt; omega
  have he : ((cfg2.win 7).blk t).view.emb (ix2 p q) = ix2 (⟨5000 * t.val + p.val, hr⟩ : Fin 50000) q := by
    funext a
    apply Fin.ext
    match a with
    | ⟨0, _⟩ => show win2_7.index t (0 : Fin 2) * 5000 + 1 * p.val = 5000 * t.val + p.val; omega
    | ⟨1, _⟩ => show win2_7.index t (1 : Fin 2) * 2 + 1 * q.val = q.val; omega
  show k2_pay1 (F := Ideal) (iblk2 V c 0 t) (iblk2 V c 1 t) (iblk2 V c 2 t) (iblk2 V c 3 t) (iblk2 V c 4 t)
      (iblk2 V c 5 t) (iblk2 V c 6 t) (ix2 p q) = G_r2 V c (((cfg2.win 7).blk t).view.emb (ix2 p q))
  refine Eq.trans ?_ (congrArg (G_r2 V c) he).symm
  refine (pay_r2 _ _ _ _ _ _ _ p q).trans ?_
  exact head_layer_congr_r2 _ _ _ _ _ _ _ _ _ _ _ _ _ _ ⟨5000 * t.val + p.val, hr⟩ p q
    (fun k => rows0_r2 V c t p k hr) (fun k => rows1_r2 V c t p k hr)
    (wblk2_r2 V c t) (wblk3_r2 V c t) (wblk4_r2 V c t) (wblk5_r2 V c t) (wblk6_r2 V c t)

/-- An index of the result array is in point t's block iff each coordinate is in the block's range on its axis. -/
theorem mem_blk_r2 (t : Fin cfg2.N) (i : S50000x2.Idx) :
    i ∈ ((cfg2.win 7).blk t).view.set
      ↔ ∀ a : Fin 2, win2_7.index t a * S5000x2.size a ≤ (i a).val
          ∧ (i a).val < win2_7.index t a * S5000x2.size a + S5000x2.size a := by
  show i ∈ ((View.whole main_v50).slice (win2_7.rect t)).set ↔ _
  rw [View.set_slice_whole, Rect.mem_set_unit]
  exact Iff.rfl

/-- Every index of the result array is in the block of the point its row divided by 5000 names, and every point
    writes back. -/
theorem cover_r2 (i : S50000x2.Idx) :
    ∃ t : Fin cfg2.N, (cfg2.win 7).flush t = true ∧ i ∈ ((cfg2.win 7).blk t).view.set := by
  have hi0 : (i 0).val < 50000 := (i 0).isLt
  have hi1 : (i 1).val < 2 := (i 1).isLt
  have hlt : (i 0).val / 5000 < cfg2.N := lt_of_lt_of_eq (by omega : (i 0).val / 5000 < 10) N_2.symm
  obtain ⟨-, -, -, -, -, -, -, -, -, -, -, -, e70, e71⟩ := idx_facts_r2 ⟨(i 0).val / 5000, hlt⟩
  refine ⟨⟨(i 0).val / 5000, hlt⟩, flush2_7 _, ?_⟩
  rw [mem_blk_r2]
  intro a
  match a with
  | ⟨0, _⟩ =>
    show win2_7.index ⟨(i 0).val / 5000, hlt⟩ (0 : Fin 2) * 5000 ≤ (i 0).val
      ∧ (i 0).val < win2_7.index ⟨(i 0).val / 5000, hlt⟩ (0 : Fin 2) * 5000 + 5000
    rw [e70]
    show (i 0).val / 5000 * 5000 ≤ (i 0).val ∧ (i 0).val < (i 0).val / 5000 * 5000 + 5000
    omega
  | ⟨1, _⟩ =>
    show win2_7.index ⟨(i 0).val / 5000, hlt⟩ (1 : Fin 2) * 2 ≤ (i 1).val
      ∧ (i 1).val < win2_7.index ⟨(i 0).val / 5000, hlt⟩ (1 : Fin 2) * 2 + 2
    rw [e71]
    omega

/-- The result array after the ten points: the head over the rectified third layer of the arrays the region finds. -/
theorem final2 (c : Dev nD) :
    (dat2 (F := Ideal) V c).arrAt 7 cfg2.N
      = Cert.Sage.headAt (M := 50000) (K := 64) (N := 2)
          (Cert.Sage.layerAt (M := 50000) (K := 128) (N := 64) (V c main_v49) (V c main_v37) (V c main_arg8) (V c main_arg9) (V c main_arg10))
          (V c main_arg11) (V c main_arg12) :=
  (dat2 V c).arrAt_eq_of_cover 7 (G_r2 V c) (fun t _ => flushed_r2 V c t) cover_r2

end Cert.KernelIdeal.RegVal

end
-- ==== Proof.KernelChain.lean ====
/-
  The idealized kernel program's result, read back through its run.

  The run's buffer contents at its six boundaries are a fold: a stretch of host operations applied to the contents
  before it, then a region's arrays replaced by what its ten write-backs leave. Reading the result array back through
  that fold: the last region leaves the head over the third layer of the arrays it was entered with; its mean
  operand is the third host stretch's aggregation of the second region's output; and so on down to the launch
  contents. The source and destination columns and the reciprocal of the degree are computed once, in the first
  stretch, and read again by the later ones. Buffers that a stretch or a region does not write keep their contents;
  that is all the bookkeeping.
-/
import proofs.«125802_j15118284882426_1_alg».proof.Proof.FrameKI
import proofs.«125802_j15118284882426_1_alg».proof.Proof.SageIdx
import proofs.«125802_j15118284882426_1_alg».proof.Proof.KernelHost
import proofs.«125802_j15118284882426_1_alg».proof.Proof.RegionVal0
import proofs.«125802_j15118284882426_1_alg».proof.Proof.RegionVal1
import proofs.«125802_j15118284882426_1_alg».proof.Proof.RegionVal2
import Idealize.ShloMosaic.Lib.StableHlo.Run

-- a reshape's result carries a cast along an equation between two buffers' element types; seeing that both
-- are the same type means reducing the buffers' declared types, which takes depth and steps, not ideas
set_option maxRecDepth 100000
set_option maxHeartbeats 2000000

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- A buffer that no operation of a host stretch writes holds after the stretch what it held before. -/
local macro "kept_by_stretch" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## After the first stretch -/

theorem W1_v1 (c : Dev nD) : W1 m ρ c (Proc.devRef .tc main_v1) = srcRow (m ((c : Thread nD τ).loc main_arg1)) := by
  show StableHlo.after hostOps0 (W0 m ρ c) (Proc.devRef .tc main_v1) = _
  after_results
  rfl

theorem W1_v3 (c : Dev nD) : W1 m ρ c (Proc.devRef .tc main_v3) = dstRow (m ((c : Thread nD τ).loc main_arg1)) := by
  show StableHlo.after hostOps0 (W0 m ρ c) (Proc.devRef .tc main_v3) = _
  after_results
  rfl

theorem W1_v11 (c : Dev nD) : W1 m ρ c (Proc.devRef .tc main_v11) = recip (dstRow (m ((c : Thread nD τ).loc main_arg1))) := by
  show StableHlo.after hostOps0 (W0 m ρ c) (Proc.devRef .tc main_v11) = _
  after_results
  rfl

theorem W1_v23 (c : Dev nD) : W1 m ρ c (Proc.devRef .tc main_v23)
    = agg96 (srcRow (m ((c : Thread nD τ).loc main_arg1))) (dstRow (m ((c : Thread nD τ).loc main_arg1))) (recip (dstRow (m ((c : Thread nD τ).loc main_arg1)))) (m ((c : Thread nD τ).loc main_arg0)) := by
  show StableHlo.after hostOps0 (W0 m ρ c) (Proc.devRef .tc main_v23) = _
  after_results
  rfl

/-! ### The arguments the first region reads are as launched -/

theorem V1_arg0 (c : Dev nD) : V1 m ρ c main_arg0 = m ((c : Thread nD τ).loc main_arg0) :=
  (show StableHlo.after hostOps0 (W0 m ρ c) (Proc.devRef .tc main_arg0) = W0 m ρ c (Proc.devRef .tc main_arg0) by kept_by_stretch).trans rfl
theorem V1_arg2 (c : Dev nD) : V1 m ρ c main_arg2 = m ((c : Thread nD τ).loc main_arg2) :=
  (show StableHlo.after hostOps0 (W0 m ρ c) (Proc.devRef .tc main_arg2) = W0 m ρ c (Proc.devRef .tc main_arg2) by kept_by_stretch).trans rfl
theorem V1_arg3 (c : Dev nD) : V1 m ρ c main_arg3 = m ((c : Thread nD τ).loc main_arg3) :=
  (show StableHlo.after hostOps0 (W0 m ρ c) (Proc.devRef .tc main_arg3) = W0 m ρ c (Proc.devRef .tc main_arg3) by kept_by_stretch).trans rfl
theorem V1_arg4 (c : Dev nD) : V1 m ρ c main_arg4 = m ((c : Thread nD τ).loc main_arg4) :=
  (show StableHlo.after hostOps0 (W0 m ρ c) (Proc.devRef .tc main_arg4) = W0 m ρ c (Proc.devRef .tc main_arg4) by kept_by_stretch).trans rfl

theorem V1_v23 (c : Dev nD) : V1 m ρ c main_v23 = (agg96 (srcRow (m ((c : Thread nD τ).loc main_arg1))) (dstRow (m ((c : Thread nD τ).loc main_arg1))) (recip (dstRow (m ((c : Thread nD τ).loc main_arg1))))) (m ((c : Thread nD τ).loc main_arg0)) :=
  W1_v23 m ρ c

/-! ## At the first region's exit -/

/-- The first region leaves the first hidden layer. -/
theorem W2_v24 (c : Dev nD) : W2 m ρ c (Proc.devRef .tc main_v24) = (Cert.Sage.hid1 (agg96 (srcRow (m ((c : Thread nD τ).loc main_arg1))) (dstRow (m ((c : Thread nD τ).loc main_arg1))) (recip (dstRow (m ((c : Thread nD τ).loc main_arg1))))) (m ((c : Thread nD τ).loc main_arg0)) (m ((c : Thread nD τ).loc main_arg2)) (m ((c : Thread nD τ).loc main_arg3)) (m ((c : Thread nD τ).loc main_arg4))) := by
  refine (W2_arr m ρ c 5).trans ((Cert.KernelIdeal.RegVal.final0 (V1 m ρ) c).trans ?_)
  rw [V1_v23, V1_arg0, V1_arg2, V1_arg3, V1_arg4]
  rfl

/-- The columns and the reciprocal are none of the region's arrays. -/
theorem W2_v1 (c : Dev nD) : W2 m ρ c (Proc.devRef .tc main_v1) = srcRow (m ((c : Thread nD τ).loc main_arg1)) :=
  (W2_of_ne m ρ c main_v1 (by decide)).trans (W1_v1 m ρ c)
theorem W2_v3 (c : Dev nD) : W2 m ρ c (Proc.devRef .tc main_v3) = dstRow (m ((c : Thread nD τ).loc main_arg1)) :=
  (W2_of_ne m ρ c main_v3 (by decide)).trans (W1_v3 m ρ c)
theorem W2_v11 (c : Dev nD) : W2 m ρ c (Proc.devRef .tc main_v11) = recip (dstRow (m ((c : Thread nD τ).loc main_arg1))) :=
  (W2_of_ne m ρ c main_v11 (by decide)).trans (W1_v11 m ρ c)

/-! ## After the second stretch -/

theorem V3_v36 (c : Dev nD) : V3 m ρ c main_v36 = (agg128 (srcRow (m ((c : Thread nD τ).loc main_arg1))) (dstRow (m ((c : Thread nD τ).loc main_arg1))) (recip (dstRow (m ((c : Thread nD τ).loc main_arg1))))) (Cert.Sage.hid1 (agg96 (srcRow (m ((c : Thread nD τ).loc main_arg1))) (dstRow (m ((c : Thread nD τ).loc main_arg1))) (recip (dstRow (m ((c : Thread nD τ).loc main_arg1))))) (m ((c : Thread nD τ).loc main_arg0)) (m ((c : Thread nD τ).loc main_arg2)) (m ((c : Thread nD τ).loc main_arg3)) (m ((c : Thread nD τ).loc main_arg4))) := by
  show StableHlo.after hostOps1 (W2 m ρ c) (Proc.devRef .tc main_v36) = _
  after_results
  rw [W2_v1, W2_v3, W2_v11, W2_v24]
  rfl

theorem V3_v24 (c : Dev nD) : V3 m ρ c main_v24 = (Cert.Sage.hid1 (agg96 (srcRow (m ((c : Thread nD τ).loc main_arg1))) (dstRow (m ((c : Thread nD τ).loc main_arg1))) (recip (dstRow (m ((c : Thread nD τ).loc main_arg1))))) (m ((c : Thread nD τ).loc main_arg0)) (m ((c : Thread nD τ).loc main_arg2)) (m ((c : Thread nD τ).loc main_arg3)) (m ((c : Thread nD τ).loc main_arg4))) :=
  (show StableHlo.after hostOps1 (W2 m ρ c) (Proc.devRef .tc main_v24) = W2 m ρ c (Proc.devRef .tc main_v24) by kept_by_stretch).trans (W2_v24 m ρ c)

theorem V3_arg5 (c : Dev nD) : V3 m ρ c main_arg5 = m ((c : Thread nD τ).loc main_arg5) :=
  (show StableHlo.after hostOps1 (W2 m ρ c) (Proc.devRef .tc main_arg5) = W2 m ρ c (Proc.devRef .tc main_arg5) by kept_by_stretch).trans
    ((W2_of_ne m ρ c main_arg5 (by decide)).trans
      ((show StableHlo.after hostOps0 (W0 m ρ c) (Proc.devRef .tc main_arg5) = W0 m ρ c (Proc.devRef .tc main_arg5) by kept_by_stretch).trans rfl))
theorem V3_arg6 (c : Dev nD) : V3 m ρ c main_arg6 = m ((c : Thread nD τ).loc main_arg6) :=
  (show StableHlo.after hostOps1 (W2 m ρ c) (Proc.devRef .tc main_arg6) = W2 m ρ c (Proc.devRef .tc main_arg6) by kept_by_stretch).trans
    ((W2_of_ne m ρ c main_arg6 (by decide)).trans
      ((show StableHlo.after hostOps0 (W0 m ρ c) (Proc.devRef .tc main_arg6) = W0 m ρ c (Proc.devRef .tc main_arg6) by kept_by_stretch).trans rfl))
theorem V3_arg7 (c : Dev nD) : V3 m ρ c main_arg7 = m ((c : Thread nD τ).loc main_arg7) :=
  (show StableHlo.after hostOps1 (W2 m ρ c) (Proc.devRef .tc main_arg7) = W2 m ρ c (Proc.devRef .tc main_arg7) by kept_by_stretch).trans
    ((W2_of_ne m ρ c main_arg7 (by decide)).trans
      ((show StableHlo.after hostOps0 (W0 m ρ c) (Proc.devRef .tc main_arg7) = W0 m ρ c (Proc.devRef .tc main_arg7) by kept_by_stretch).trans rfl))

/-! ## At the second region's exit -/

/-- The second region leaves the second hidden layer. -/
theorem W4_v37 (c : Dev nD) : W4 m ρ c (Proc.devRef .tc main_v37) = (Cert.Sage.hid2 (agg96 (srcRow (m ((c : Thread nD τ).loc main_arg1))) (dstRow (m ((c : Thread nD τ).loc main_arg1))) (recip (dstRow (m ((c : Thread nD τ).loc main_arg1))))) (agg128 (srcRow (m ((c : Thread nD τ).loc main_arg1))) (dstRow (m ((c : Thread nD τ).loc main_arg1))) (recip (dstRow (m ((c : Thread nD τ).loc main_arg1))))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W4_arr m ρ c 5).trans ((Cert.KernelIdeal.RegVal.final1 (V3 m ρ) c).trans ?_)
  rw [V3_v36, V3_v24, V3_arg5, V3_arg6, V3_arg7]
  rfl

theorem W4_v1 (c : Dev nD) : W4 m ρ c (Proc.devRef .tc main_v1) = srcRow (m ((c : Thread nD τ).loc main_arg1)) :=
  (W4_of_ne m ρ c main_v1 (by decide)).trans
    ((show StableHlo.after hostOps1 (W2 m ρ c) (Proc.devRef .tc main_v1) = W2 m ρ c (Proc.devRef .tc main_v1) by kept_by_stretch).trans (W2_v1 m ρ c))
theorem W4_v3 (c : Dev nD) : W4 m ρ c (Proc.devRef .tc main_v3) = dstRow (m ((c : Thread nD τ).loc main_arg1)) :=
  (W4_of_ne m ρ c main_v3 (by decide)).trans
    ((show StableHlo.after hostOps1 (W2 m ρ c) (Proc.devRef .tc main_v3) = W2 m ρ c (Proc.devRef .tc main_v3) by kept_by_stretch).trans (W2_v3 m ρ c))
theorem W4_v11 (c : Dev nD) : W4 m ρ c (Proc.devRef .tc main_v11) = recip (dstRow (m ((c : Thread nD τ).loc main_arg1))) :=
  (W4_of_ne m ρ c main_v11 (by decide)).trans
    ((show StableHlo.after hostOps1 (W2 m ρ c) (Proc.devRef .tc main_v11) = W2 m ρ c (Proc.devRef .tc main_v11) by kept_by_stretch).trans (W2_v11 m ρ c))

/-! ## After the third stretch -/

theorem V5_v49 (c : Dev nD) : V5 m ρ c main_v49 = (agg128 (srcRow (m ((c : Thread nD τ).loc main_arg1))) (dstRow (m ((c : Thread nD τ).loc main_arg1))) (recip (dstRow (m ((c : Thread nD τ).loc main_arg1))))) (Cert.Sage.hid2 (agg96 (srcRow (m ((c : Thread nD τ).loc main_arg1))) (dstRow (m ((c : Thread nD τ).loc main_arg1))) (recip (dstRow (m ((c : Thread nD τ).loc main_arg1))))) (agg128 (srcRow (m ((c : Thread nD τ).loc main_arg1))) (dstRow (m ((c : Thread nD τ).loc main_arg1))) (recip (dstRow (m ((c : Thread nD τ).loc main_arg1))))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps2 (W4 m ρ c) (Proc.devRef .tc main_v49) = _
  after_results
  rw [W4_v1, W4_v3, W4_v11, W4_v37]
  rfl

theorem V5_v37 (c : Dev nD) : V5 m ρ c main_v37 = (Cert.Sage.hid2 (agg96 (srcRow (m ((c : Thread nD τ).loc main_arg1))) (dstRow (m ((c : Thread nD τ).loc main_arg1))) (recip (dstRow (m ((c : Thread nD τ).loc main_arg1))))) (agg128 (srcRow (m ((c : Thread nD τ).loc main_arg1))) (dstRow (m ((c : Thread nD τ).loc main_arg1))) (recip (dstRow (m ((c : Thread nD τ).loc main_arg1))))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (show StableHlo.after hostOps2 (W4 m ρ c) (Proc.devRef .tc main_v37) = W4 m ρ c (Proc.devRef .tc main_v37) by kept_by_stretch).trans (W4_v37 m ρ c)

/-- An argument the last region reads through an input window: the region leaves it as it found it, and the whole
    run leaves it as launched. -/
theorem V5_arg8 (c : Dev nD) : V5 m ρ c main_arg8 = m ((c : Thread nD τ).loc main_arg8) :=
  ((W6_arr m ρ c 2).trans (((dat2 (V5 m ρ) c).arrAt_in 2 rfl _).trans (A_eq2 (V5 m ρ) c 2))).symm.trans (W6_main_arg8 m ρ c)
theorem V5_arg9 (c : Dev nD) : V5 m ρ c main_arg9 = m ((c : Thread nD τ).loc main_arg9) :=
  ((W6_arr m ρ c 3).trans (((dat2 (V5 m ρ) c).arrAt_in 3 rfl _).trans (A_eq2 (V5 m ρ) c 3))).symm.trans (W6_main_arg9 m ρ c)
theorem V5_arg10 (c : Dev nD) : V5 m ρ c main_arg10 = m ((c : Thread nD τ).loc main_arg10) :=
  ((W6_arr m ρ c 4).trans (((dat2 (V5 m ρ) c).arrAt_in 4 rfl _).trans (A_eq2 (V5 m ρ) c 4))).symm.trans (W6_main_arg10 m ρ c)
theorem V5_arg11 (c : Dev nD) : V5 m ρ c main_arg11 = m ((c : Thread nD τ).loc main_arg11) :=
  ((W6_arr m ρ c 5).trans (((dat2 (V5 m ρ) c).arrAt_in 5 rfl _).trans (A_eq2 (V5 m ρ) c 5))).symm.trans (W6_main_arg11 m ρ c)
theorem V5_arg12 (c : Dev nD) : V5 m ρ c main_arg12 = m ((c : Thread nD τ).loc main_arg12) :=
  ((W6_arr m ρ c 6).trans (((dat2 (V5 m ρ) c).arrAt_in 6 rfl _).trans (A_eq2 (V5 m ρ) c 6))).symm.trans (W6_main_arg12 m ρ c)

/-! ## The result -/

/-- The result array at the run's last boundary is the network of the launch contents, with this program's
    spelling of the aggregation. -/
theorem W6_out (c : Dev nD) : W6 m ρ c (Proc.devRef .tc main_v50)
    = Cert.Sage.outAt (agg96 (srcRow (m ((c : Thread nD τ).loc main_arg1))) (dstRow (m ((c : Thread nD τ).loc main_arg1))) (recip (dstRow (m ((c : Thread nD τ).loc main_arg1))))) (agg128 (srcRow (m ((c : Thread nD τ).loc main_arg1))) (dstRow (m ((c : Thread nD τ).loc main_arg1))) (recip (dstRow (m ((c : Thread nD τ).loc main_arg1)))))
        (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 7).trans ((Cert.KernelIdeal.RegVal.final2 (V5 m ρ) c).trans ?_)
  rw [V5_v49, V5_v37, V5_arg8, V5_arg9, V5_arg10, V5_arg11, V5_arg12]
  rfl

end Cert.KernelIdeal.Chain

end
-- ==== Proof.RefValue.lean ====
import proofs.«125802_j15118284882426_1_alg».proof.Proof.Gen.ReferenceIdeal.Run
import proofs.«125802_j15118284882426_1_alg».proof.Proof.SageIdx
import proofs.«125802_j15118284882426_1_alg».proof.Proof.LibPlainDot
import Idealize.ShloMosaic.Lib.Pipeline.Value
import Idealize.ShloMosaic.Lib.ValueIdx
import Idealize.ShloMosaic.PureOps.Ideal.Laws

/-!
  The reference network's result, entry by entry, over the extended reals.

  The reference computes three rectified graph-convolution layers and a linear head. In every layer the
  neighbourhood mean of a node is the sum of the features of the edges' source nodes, scattered to the edges'
  destination nodes, divided by the number of edges that arrive at the node (at least one). The edge list is a
  two-row array: row 0 holds the sources, row 1 the destinations; a negative source is read from the end of
  the node range. This file names that aggregation, for 96 and for 128 features, and proves that the
  reference's result is the network of `Cert.Sage.outAt` with that aggregation.
-/

noncomputable section

namespace Cert.ReferenceIdeal.RefValue

open Cert.ReferenceIdeal Cert.ReferenceIdeal.Gen Idealize.ShloMosaic Idealize.ShloMosaic.TcCoe Idealize.SL.Sem Idealize.ShloMosaic.ValueIdx

/-! ## The neighbourhood aggregation -/

/-- The destination column: row 1 of the edge list as one column of 800000 entries. -/
def dstB (e : IVec S2x800000 32) : IVec S800000x1 32 :=
  broadcastInDim S800000x1 ![0] bcast_S800000_S800000x1_0
    (shapeCast S800000 (extractStridedSlice S1x800000 ![1, 0] e slices_S2x800000_S1x800000_1_0) shapeCasts_S1x800000_S800000)

/-- The source column: row 0 of the edge list as one column of 800000 entries, a negative entry moved up by
    the number of nodes. -/
def srcB (e : IVec S2x800000 32) : IVec S800000x1 32 :=
  broadcastInDim S800000x1 ![0] bcast_S800000_S800000x1_0
    (select
      (cmpi .slt (shapeCast S800000 (extractStridedSlice S1x800000 ![0, 0] e slices_S2x800000_S1x800000_0_0) shapeCasts_S1x800000_S800000)
        (broadcastInDim S800000 ![] bcast_S_S800000 (constantI S_ 32 0#32)))
      (addi (shapeCast S800000 (extractStridedSlice S1x800000 ![0, 0] e slices_S2x800000_S1x800000_0_0) shapeCasts_S1x800000_S800000)
        (broadcastInDim S800000 ![] bcast_S_S800000 (constantI S_ 32 50000#32)))
      (shapeCast S800000 (extractStridedSlice S1x800000 ![0, 0] e slices_S2x800000_S1x800000_0_0) shapeCasts_S1x800000_S800000))

/-- The number of edges that arrive at each node, and one where none does: a one per edge summed into the
    destination's entry, then the maximum with one. -/
def cnt (e : IVec S2x800000 32) : FVec Ideal S50000x1 .f32 :=
  maximumf (F := Ideal)
    (Host.scatterAdd (F := Ideal) scatter_S50000x1_S800000x1_S800000x1_1_0_0_1
      (broadcastInDim S50000x1 ![] bcast_S_S50000x1 (constant (F := Ideal) S_ .f32 0x00000000#32))
      (dstB e)
      (broadcastInDim S800000x1 ![] bcast_S_S800000x1 (constant (F := Ideal) S_ .f32 0x3F800000#32)))
    (broadcastInDim S50000x1 ![] bcast_S_S50000x1 (constant (F := Ideal) S_ .f32 0x3F800000#32))

/-- The sum, per node, of the 96 features of the sources of the edges that arrive at it. -/
def sum96 (e : IVec S2x800000 32) (f : FVec Ideal S50000x96 .f32) :
    FVec Ideal S50000x96 .f32 :=
  Host.scatterAdd (F := Ideal) scatter_S50000x96_S800000x1_S800000x96_1_0_0_1
    (broadcastInDim S50000x96 ![] bcast_S_S50000x96 (constant (F := Ideal) S_ .f32 0x00000000#32))
    (dstB e)
    (Host.gather gather_S50000x96_S800000x1_S800000x96_1_0_n_n_0_1_196 f (srcB e))

/-- The same sum for 128 features. -/
def sum128 (e : IVec S2x800000 32) (f : FVec Ideal S50000x128 .f32) :
    FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (dstB e)
    (Host.gather gather_S50000x128_S800000x1_S800000x128_1_0_n_n_0_1_1128 f (srcB e))

/-- The neighbourhood mean of 96 features: the sum divided, entry by entry, by the node's count. -/
def agg96 (e : IVec S2x800000 32) (f : FVec Ideal S50000x96 .f32) :
    FVec Ideal S50000x96 .f32 :=
  Host.divf (F := Ideal) (sum96 e f) (broadcastInDim S50000x96 ![0, 1] bcast_S50000x1_S50000x96_0_1 (cnt e))

/-- The neighbourhood mean of 128 features. -/
def agg128 (e : IVec S2x800000 32) (f : FVec Ideal S50000x128 .f32) :
    FVec Ideal S50000x128 .f32 :=
  Host.divf (F := Ideal) (sum128 e f) (broadcastInDim S50000x128 ![0, 1] bcast_S50000x1_S50000x128_0_1 (cnt e))

/-! ## One layer as the reference spells it

  A layer is two matrix products (the neighbourhood mean against `Wl`, the features against `Wr`) added entry by
  entry, plus the bias row repeated over the rows, and then the entrywise maximum with an array of the zero word.
  Read at an entry (row, column), each product is the sum over the inner index of left(row, k) * right(k, column),
  the repeated bias is the bias at the column, and the array of the zero word is the value of the zero word. -/

/-- The contraction of a 50000 x 96 array with a 96 x 128 array is the plain one. -/
theorem dot96_eq : dot_S50000x96_S96x128_S50000x128_1_0_0_1_n_n = DotDims.plain 50000 96 128 := rfl

/-- The contraction of a 50000 x 128 array with a 128 x 128 array is the plain one. -/
theorem dot128_eq : dot_S50000x128_S128x128_S50000x128_1_0_0_1_n_n = DotDims.plain 50000 128 128 := rfl

/-- The contraction of a 50000 x 128 array with a 128 x 64 array is the plain one. -/
theorem dot64_eq : dot_S50000x128_S128x64_S50000x64_1_0_0_1_n_n = DotDims.plain 50000 128 64 := rfl

/-- The contraction of a 50000 x 64 array with a 64 x 2 array is the plain one. -/
theorem dot2_eq : dot_S50000x64_S64x2_S50000x2_1_0_0_1_n_n = DotDims.plain 50000 64 2 := rfl

/-- The product of a 50000 x 96 array and a 96 x 128 array at an entry: the sum over the inner index. -/
theorem dot96_apply (A : FVec Ideal S50000x96 .f32) (B : FVec Ideal S96x128 .f32) (j : S50000x128.Idx) :
    FloatOps.dotGeneral (F := Ideal) dot_S50000x96_S96x128_S50000x128_1_0_0_1_n_n none HostSchedule.single A B j
      = Cert.Sage.rowCol A B j := by
  rw [dot96_eq]
  exact Cert.PlainDot.dotGeneral_apply none HostSchedule.single A B j

/-- The product of a 50000 x 128 array and a 128 x 128 array at an entry. -/
theorem dot128_apply (A : FVec Ideal S50000x128 .f32) (B : FVec Ideal S128x128 .f32) (j : S50000x128.Idx) :
    FloatOps.dotGeneral (F := Ideal) dot_S50000x128_S128x128_S50000x128_1_0_0_1_n_n none HostSchedule.single A B j
      = Cert.Sage.rowCol A B j := by
  rw [dot128_eq]
  exact Cert.PlainDot.dotGeneral_apply none HostSchedule.single A B j

/-- The product of a 50000 x 128 array and a 128 x 64 array at an entry. -/
theorem dot64_apply (A : FVec Ideal S50000x128 .f32) (B : FVec Ideal S128x64 .f32) (j : S50000x64.Idx) :
    FloatOps.dotGeneral (F := Ideal) dot_S50000x128_S128x64_S50000x64_1_0_0_1_n_n none HostSchedule.single A B j
      = Cert.Sage.rowCol A B j := by
  rw [dot64_eq]
  exact Cert.PlainDot.dotGeneral_apply none HostSchedule.single A B j

/-- The product of a 50000 x 64 array and a 64 x 2 array at an entry. -/
theorem dot2_apply (A : FVec Ideal S50000x64 .f32) (B : FVec Ideal S64x2 .f32) (j : S50000x2.Idx) :
    FloatOps.dotGeneral (F := Ideal) dot_S50000x64_S64x2_S50000x2_1_0_0_1_n_n none HostSchedule.single A B j
      = Cert.Sage.rowCol A B j := by
  rw [dot2_eq]
  exact Cert.PlainDot.dotGeneral_apply none HostSchedule.single A B j

/-- A bias of 128 entries, made one row and repeated over 50000 rows, read at an entry: the bias at the column. -/
theorem bias128_apply (b : FVec Ideal S128 .f32) (j : S50000x128.Idx) :
    broadcastInDim S50000x128 ![0, 1] bcast_S1x128_S50000x128_0_1 (broadcastInDim S1x128 ![1] bcast_S128_S1x128_1 b) j
      = b (ix1 (j 1)) :=
  (broadcastInDim_apply _ bcast_S1x128_S50000x128_0_1 (broadcastInDim S1x128 ![1] bcast_S128_S1x128_1 b) j
    (ix2 (0 : Fin 1) (j 1)) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])).trans
  (broadcastInDim_apply _ bcast_S128_S1x128_1 b (ix2 (0 : Fin 1) (j 1)) (ix1 (j 1)) (fun a => match a with
      | ⟨0, _⟩ => by show (j 1).val = if (128 : Nat) = 1 then 0 else (j 1).val; rw [if_neg (by decide)]))

/-- A bias of 64 entries, made one row and repeated over 50000 rows, read at an entry: the bias at the column. -/
theorem bias64_apply (b : FVec Ideal S64 .f32) (j : S50000x64.Idx) :
    broadcastInDim S50000x64 ![0, 1] bcast_S1x64_S50000x64_0_1 (broadcastInDim S1x64 ![1] bcast_S64_S1x64_1 b) j
      = b (ix1 (j 1)) :=
  (broadcastInDim_apply _ bcast_S1x64_S50000x64_0_1 (broadcastInDim S1x64 ![1] bcast_S64_S1x64_1 b) j
    (ix2 (0 : Fin 1) (j 1)) (fun a => match a with
      | ⟨0, _⟩ => by show 0 = if (1 : Nat) = 1 then 0 else (j 0).val; rw [if_pos rfl]
      | ⟨1, _⟩ => by show (j 1).val = if (64 : Nat) = 1 then 0 else (j 1).val; rw [if_neg (by decide)])).trans
  (broadcastInDim_apply _ bcast_S64_S1x64_1 b (ix2 (0 : Fin 1) (j 1)) (ix1 (j 1)) (fun a => match a with
      | ⟨0, _⟩ => by show (j 1).val = if (64 : Nat) = 1 then 0 else (j 1).val; rw [if_neg (by decide)]))

/-- A bias of 2 entries, made one row and repeated over 50000 rows, read at an entry: the bias at the column. -/
theorem bias2_apply (b : FVec Ideal S2 .f32) (j : S50000x2.Idx) :
    broadcastInDim S50000x2 ![0, 1] bcast_S1x2_S50000x2_0_1 (broadcastInDim S1x2 ![1] bcast_S2_S1x2_1 b) j
      = b (ix1 (j 1)) :=
  (broadcastInDim_apply _ bcast_S1x2_S50000x2_0_1 (broadcastInDim S1x2 ![1] bcast_S2_S1x2_1 b) j
    (ix2 (0 : Fin 1) (j 1)) (fun a => match a with
      | ⟨0, _⟩ => by show 0 = if (1 : Nat) = 1 then 0 else (j 0).val; rw [if_pos rfl]
      | ⟨1, _⟩ => by show (j 1).val = if (2 : Nat) = 1 then 0 else (j 1).val; rw [if_neg (by decide)])).trans
  (broadcastInDim_apply _ bcast_S2_S1x2_1 b (ix2 (0 : Fin 1) (j 1)) (ix1 (j 1)) (fun a => match a with
      | ⟨0, _⟩ => by show (j 1).val = if (2 : Nat) = 1 then 0 else (j 1).val; rw [if_neg (by decide)]))

/-- A rectified layer from 96 to 128 features, as the reference spells it. -/
def layP96 (A X : FVec Ideal S50000x96 .f32) (Wl Wr : FVec Ideal S96x128 .f32) (b : FVec Ideal S128 .f32) :
    FVec Ideal S50000x128 .f32 :=
  maximumf (F := Ideal)
    (addf (F := Ideal)
      (addf (F := Ideal)
        (Host.dotGeneral (F := Ideal) dot_S50000x96_S96x128_S50000x128_1_0_0_1_n_n none A Wl)
        (Host.dotGeneral (F := Ideal) dot_S50000x96_S96x128_S50000x128_1_0_0_1_n_n none X Wr))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- A rectified layer from 128 to 128 features, as the reference spells it. -/
def layP128 (A X : FVec Ideal S50000x128 .f32) (Wl Wr : FVec Ideal S128x128 .f32) (b : FVec Ideal S128 .f32) :
    FVec Ideal S50000x128 .f32 :=
  maximumf (F := Ideal)
    (addf (F := Ideal)
      (addf (F := Ideal)
        (Host.dotGeneral (F := Ideal) dot_S50000x128_S128x128_S50000x128_1_0_0_1_n_n none A Wl)
        (Host.dotGeneral (F := Ideal) dot_S50000x128_S128x128_S50000x128_1_0_0_1_n_n none X Wr))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- A rectified layer from 128 to 64 features, as the reference spells it. -/
def layP64 (A X : FVec Ideal S50000x128 .f32) (Wl Wr : FVec Ideal S128x64 .f32) (b : FVec Ideal S64 .f32) :
    FVec Ideal S50000x64 .f32 :=
  maximumf (F := Ideal)
    (addf (F := Ideal)
      (addf (F := Ideal)
        (Host.dotGeneral (F := Ideal) dot_S50000x128_S128x64_S50000x64_1_0_0_1_n_n none A Wl)
        (Host.dotGeneral (F := Ideal) dot_S50000x128_S128x64_S50000x64_1_0_0_1_n_n none X Wr))
      (broadcastInDim S50000x64 ![0, 1] bcast_S1x64_S50000x64_0_1 (broadcastInDim S1x64 ![1] bcast_S64_S1x64_1 b)))
    (broadcastInDim S50000x64 ![] bcast_S_S50000x64 (constant (F := Ideal) S_ .f32 0x00000000#32))

/-- The classifier head from 64 features to 2, as the reference spells it: one product plus the repeated bias. -/
def headP (H : FVec Ideal S50000x64 .f32) (Wc : FVec Ideal S64x2 .f32) (bc : FVec Ideal S2 .f32) :
    FVec Ideal S50000x2 .f32 :=
  addf (F := Ideal)
    (Host.dotGeneral (F := Ideal) dot_S50000x64_S64x2_S50000x2_1_0_0_1_n_n none H Wc)
    (broadcastInDim S50000x2 ![0, 1] bcast_S1x2_S50000x2_0_1 (broadcastInDim S1x2 ![1] bcast_S2_S1x2_1 bc))

/-- The 96-to-128 layer is the entrywise layer: sum plus sum plus the column's bias, maximum with the zero word's value. -/
theorem layerR96 (A X : FVec Ideal S50000x96 .f32) (Wl Wr : FVec Ideal S96x128 .f32) (b : FVec Ideal S128 .f32) :
    layP96 A X Wl Wr b = Cert.Sage.layerAt A X Wl Wr b := by
  funext j
  show max ((FloatOps.dotGeneral (F := Ideal) dot_S50000x96_S96x128_S50000x128_1_0_0_1_n_n none HostSchedule.single A Wl j
        + FloatOps.dotGeneral (F := Ideal) dot_S50000x96_S96x128_S50000x128_1_0_0_1_n_n none HostSchedule.single X Wr j)
      + broadcastInDim S50000x128 ![0, 1] bcast_S1x128_S50000x128_0_1 (broadcastInDim S1x128 ![1] bcast_S128_S1x128_1 b) j)
      (Ideal.ofBits .f32 0x00000000#32) = _
  rw [dot96_apply, dot96_apply, bias128_apply]
  rfl

/-- The 128-to-128 layer is the entrywise layer. -/
theorem layerR128 (A X : FVec Ideal S50000x128 .f32) (Wl Wr : FVec Ideal S128x128 .f32) (b : FVec Ideal S128 .f32) :
    layP128 A X Wl Wr b = Cert.Sage.layerAt A X Wl Wr b := by
  funext j
  show max ((FloatOps.dotGeneral (F := Ideal) dot_S50000x128_S128x128_S50000x128_1_0_0_1_n_n none HostSchedule.single A Wl j
        + FloatOps.dotGeneral (F := Ideal) dot_S50000x128_S128x128_S50000x128_1_0_0_1_n_n none HostSchedule.single X Wr j)
      + broadcastInDim S50000x128 ![0, 1] bcast_S1x128_S50000x128_0_1 (broadcastInDim S1x128 ![1] bcast_S128_S1x128_1 b) j)
      (Ideal.ofBits .f32 0x00000000#32) = _
  rw [dot128_apply, dot128_apply, bias128_apply]
  rfl

/-- The 128-to-64 layer is the entrywise layer. -/
theorem layerR64 (A X : FVec Ideal S50000x128 .f32) (Wl Wr : FVec Ideal S128x64 .f32) (b : FVec Ideal S64 .f32) :
    layP64 A X Wl Wr b = Cert.Sage.layerAt A X Wl Wr b := by
  funext j
  show max ((FloatOps.dotGeneral (F := Ideal) dot_S50000x128_S128x64_S50000x64_1_0_0_1_n_n none HostSchedule.single A Wl j
        + FloatOps.dotGeneral (F := Ideal) dot_S50000x128_S128x64_S50000x64_1_0_0_1_n_n none HostSchedule.single X Wr j)
      + broadcastInDim S50000x64 ![0, 1] bcast_S1x64_S50000x64_0_1 (broadcastInDim S1x64 ![1] bcast_S64_S1x64_1 b) j)
      (Ideal.ofBits .f32 0x00000000#32) = _
  rw [dot64_apply, dot64_apply, bias64_apply]
  rfl

/-- The head is the entrywise head: the sum plus the column's bias. -/
theorem headR (H : FVec Ideal S50000x64 .f32) (Wc : FVec Ideal S64x2 .f32) (bc : FVec Ideal S2 .f32) :
    headP H Wc bc = Cert.Sage.headAt H Wc bc := by
  funext j
  show FloatOps.dotGeneral (F := Ideal) dot_S50000x64_S64x2_S50000x2_1_0_0_1_n_n none HostSchedule.single H Wc j
      + broadcastInDim S50000x2 ![0, 1] bcast_S1x2_S50000x2_0_1 (broadcastInDim S1x2 ![1] bcast_S2_S1x2_1 bc) j = _
  rw [dot2_apply, bias2_apply]
  rfl

/-! ## The network as the reference spells it -/

section Net

variable (e : IVec S2x800000 32) (x : FVec Ideal S50000x96 .f32)
  (Wl1 Wr1 : FVec Ideal S96x128 .f32) (b1 : FVec Ideal S128 .f32)
  (Wl2 Wr2 : FVec Ideal S128x128 .f32) (b2 : FVec Ideal S128 .f32)
  (Wl3 Wr3 : FVec Ideal S128x64 .f32) (b3 : FVec Ideal S64 .f32)
  (Wc : FVec Ideal S64x2 .f32) (bc : FVec Ideal S2 .f32)

/-- The first hidden layer over the mean of the input features. -/
def hidP1 : FVec Ideal S50000x128 .f32 := layP96 (agg96 e x) x Wl1 Wr1 b1

/-- The second hidden layer over the mean of the first. -/
def hidP2 : FVec Ideal S50000x128 .f32 :=
  layP128 (agg128 e (hidP1 e x Wl1 Wr1 b1)) (hidP1 e x Wl1 Wr1 b1) Wl2 Wr2 b2

/-- The third layer over the mean of the second, then the head. -/
def netP : FVec Ideal S50000x2 .f32 :=
  headP (layP64 (agg128 e (hidP2 e x Wl1 Wr1 b1 Wl2 Wr2 b2)) (hidP2 e x Wl1 Wr1 b1 Wl2 Wr2 b2) Wl3 Wr3 b3) Wc bc

theorem hidP1_eq : hidP1 e x Wl1 Wr1 b1 = Cert.Sage.hid1 (agg96 e) x Wl1 Wr1 b1 :=
  layerR96 (agg96 e x) x Wl1 Wr1 b1

theorem hidP2_eq : hidP2 e x Wl1 Wr1 b1 Wl2 Wr2 b2 = Cert.Sage.hid2 (agg96 e) (agg128 e) x Wl1 Wr1 b1 Wl2 Wr2 b2 := by
  unfold hidP2 Cert.Sage.hid2
  rw [hidP1_eq]
  exact layerR128 _ _ _ _ _

theorem netP_eq : netP e x Wl1 Wr1 b1 Wl2 Wr2 b2 Wl3 Wr3 b3 Wc bc
    = Cert.Sage.outAt (agg96 e) (agg128 e) x Wl1 Wr1 b1 Wl2 Wr2 b2 Wl3 Wr3 b3 Wc bc := by
  unfold netP Cert.Sage.outAt
  rw [hidP2_eq, layerR64]
  exact headR _ _ _

end Net

/-! ## The reference's result -/

set_option maxRecDepth 32768 in
/-- The reference's result is the network as spelt above, at the launch contents of its arguments: the two sides
    are the same term once the names above are opened. -/
theorem res_netP (m : (ℓ : Loc nD τ sig) → Buf (Elt Ideal) ℓ) (c : Dev nD) :
    Value.res_main_v82 (F := Ideal) m c
      = netP (m ((c.tc : Thread nD τ).loc main_arg1)) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) := by
  unfold Value.res_main_v82
  rfl

/-- The reference's result is the network of three rectified layers and the head, the neighbourhood aggregation
    being the reference's own: gather the sources, sum at the destinations, divide by the count. -/
theorem ref_value (m : (ℓ : Loc nD τ sig) → Buf (Elt Ideal) ℓ) (c : Dev nD) :
    Value.res_main_v82 (F := Ideal) m c
      = Cert.Sage.outAt (agg96 (m ((c.tc : Thread nD τ).loc main_arg1))) (agg128 (m ((c.tc : Thread nD τ).loc main_arg1)))
          (m ((c.tc : Thread nD τ).loc main_arg0)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) :=
  (res_netP m c).trans (netP_eq _ _ _ _ _ _ _ _ _ _ _ _ _)

end Cert.ReferenceIdeal.RefValue

end
-- ==== Proof.MeanLaw.lean ====
/-
  Dividing by a count, two ways.

  On the extended reals the quotient `x / y` by a nonzero `y` is the product `x * y⁻¹` (the inverse of an infinity
  being zero), so `x * (1 / y) = x * (1 * y⁻¹) = x * y⁻¹ = x / y` for every `x`, the infinities included, as soon
  as `y` is not zero. A count made at least one by a maximum with one is never zero. Hence an array multiplied
  by the broadcast reciprocal of such a count is the array divided by the broadcast count, entry by entry: a
  broadcast reads its operand at an index that depends on the result index alone, the same on both sides.
-/
import Idealize.ShloMosaic.Lib.ValueIdx
import Idealize.ShloMosaic.PureOps.Ideal.Laws

noncomputable section

namespace Cert.Sage

open Idealize.ShloMosaic

/-- The word of the float one denotes the real one. -/
theorem ofBits_one_f32 : Ideal.ofBits .f32 0x3F800000#32 = 1 := by
  simp [Ideal.ofBits, Ideal.ieee, -EReal.coe_mul]; norm_num

/-- The product with the reciprocal of a nonzero extended real is the quotient by it. -/
theorem mul_one_div (x y : EReal) (hy : y ≠ 0) : x * Ideal.div 1 y = Ideal.div x y := by
  unfold Ideal.div
  rw [if_neg hy, if_neg hy, one_mul]

/-- The maximum with one is not zero. -/
theorem max_one_ne_zero (a : EReal) : max a 1 ≠ 0 :=
  ne_of_gt (lt_of_lt_of_le zero_lt_one (le_max_right a 1))

/-- A splat of a float word, broadcast from the rank-zero shape, reads the word's value at every index. -/
theorem bcast_const_apply {t : Shape} (h : (⟨0, ![]⟩ : Shape).BroadcastsInDim t (![] : Fin 0 → Fin t.rank)) (w : BitVec 32)
    (i : t.Idx) :
    broadcastInDim t (![] : Fin 0 → Fin t.rank) h (constant (F := Ideal) (⟨0, ![]⟩ : Shape) .f32 w) i = Ideal.ofBits .f32 w :=
  rfl

/-- THE LAW. `A` times the broadcast of `ones / cnt` is `A` over the broadcast of `cnt`, when `ones` is one and
    `cnt` is nowhere zero. -/
theorem mul_bcast_recip_eq_div_bcast {s s₁ : Shape} (dims : Fin s₁.rank → Fin s.rank) (hb : s₁.BroadcastsInDim s dims)
    (A : FVec Ideal s .f32) (ones cnt : FVec Ideal s₁ .f32) (h1 : ∀ i, ones i = 1) (hc : ∀ i, cnt i ≠ 0) :
    mulf A (broadcastInDim s dims hb (Host.divf ones cnt)) = Host.divf A (broadcastInDim s dims hb cnt) := by
  funext j
  show A j * Ideal.div (ones _) (cnt _) = Ideal.div (A j) (cnt _)
  rw [h1]
  exact mul_one_div _ _ (hc _)

end Cert.Sage

end
-- ==== Proof.AggEq.lean ====
import proofs.«125802_j15118284882426_1_alg».proof.Proof.KernelHost
import proofs.«125802_j15118284882426_1_alg».proof.Proof.RefValue
import proofs.«125802_j15118284882426_1_alg».proof.Proof.MeanLaw

/-!
  The neighbourhood mean, spelt two ways, is one array.

  Both programs gather the features of every edge's source node and add them up at the edge's destination node,
  and both count the edges that arrive at a node and take the maximum of the count with one. One program then
  divides the sum by the count repeated along the features; the other multiplies the sum by the reciprocal of
  the count, repeated along the features. A count that is a maximum with one is never zero, and the product with
  the reciprocal of a nonzero extended real is the quotient by it, so the two arrays agree entry by entry. What
  is left after that law is the same chain of operations written over two programs' shape records, which carry
  the same extents and axis lists.
-/

noncomputable section

namespace Cert.Proof.AggEq

open Idealize.ShloMosaic

/-- For 96 features, the two spellings of the neighbourhood mean give the same array. -/
theorem agg96_eq (e : IVec Cert.KernelIdeal.S2x800000 32) (f : FVec Ideal Cert.KernelIdeal.S50000x96 .f32) :
    Cert.KernelIdeal.Chain.agg96 (Cert.KernelIdeal.Chain.srcRow e) (Cert.KernelIdeal.Chain.dstRow e)
        (Cert.KernelIdeal.Chain.recip (Cert.KernelIdeal.Chain.dstRow e)) f
      = Cert.ReferenceIdeal.RefValue.agg96 e f := by
  unfold Cert.KernelIdeal.Chain.agg96 Cert.KernelIdeal.Chain.recip
  refine (Cert.Sage.mul_bcast_recip_eq_div_bcast _ _ _ _ (Cert.KernelIdeal.Chain.degree _) (fun i => ?_) (fun i => ?_)).trans ?_
  · -- the array of ones reads one at every index
    exact (Cert.Sage.bcast_const_apply _ _ i).trans Cert.Sage.ofBits_one_f32
  · -- the count is an entrywise maximum with the array of ones, which reads one at the index
    have hone : broadcastInDim Cert.KernelIdeal.S50000x1 ![] Cert.KernelIdeal.Gen.bcast_S_S50000x1
        (constant (F := Ideal) Cert.KernelIdeal.S_ .f32 0x3F800000#32) i = 1 :=
      (Cert.Sage.bcast_const_apply _ _ i).trans Cert.Sage.ofBits_one_f32
    unfold Cert.KernelIdeal.Chain.degree
    rw [Idealize.ShloMosaic.ValueIdx.maximumf_apply]
    exact (congrArg (max _) hone).trans_ne (Cert.Sage.max_one_ne_zero _)
  · -- the sum over the count: the same operations on both sides, over records with the same fields
    unfold Cert.KernelIdeal.Chain.sum96 Cert.KernelIdeal.Chain.degree Cert.KernelIdeal.Chain.dstB Cert.KernelIdeal.Chain.srcB
      Cert.KernelIdeal.Chain.srcRow Cert.KernelIdeal.Chain.dstRow
      Cert.ReferenceIdeal.RefValue.agg96 Cert.ReferenceIdeal.RefValue.sum96 Cert.ReferenceIdeal.RefValue.cnt
      Cert.ReferenceIdeal.RefValue.dstB Cert.ReferenceIdeal.RefValue.srcB
    rfl

/-- For 128 features, the two spellings of the neighbourhood mean give the same array. -/
theorem agg128_eq (e : IVec Cert.KernelIdeal.S2x800000 32) (f : FVec Ideal Cert.KernelIdeal.S50000x128 .f32) :
    Cert.KernelIdeal.Chain.agg128 (Cert.KernelIdeal.Chain.srcRow e) (Cert.KernelIdeal.Chain.dstRow e)
        (Cert.KernelIdeal.Chain.recip (Cert.KernelIdeal.Chain.dstRow e)) f
      = Cert.ReferenceIdeal.RefValue.agg128 e f := by
  unfold Cert.KernelIdeal.Chain.agg128 Cert.KernelIdeal.Chain.recip
  refine (Cert.Sage.mul_bcast_recip_eq_div_bcast _ _ _ _ (Cert.KernelIdeal.Chain.degree _) (fun i => ?_) (fun i => ?_)).trans ?_
  · -- the array of ones reads one at every index
    exact (Cert.Sage.bcast_const_apply _ _ i).trans Cert.Sage.ofBits_one_f32
  · -- the count is an entrywise maximum with the array of ones, which reads one at the index
    have hone : broadcastInDim Cert.KernelIdeal.S50000x1 ![] Cert.KernelIdeal.Gen.bcast_S_S50000x1
        (constant (F := Ideal) Cert.KernelIdeal.S_ .f32 0x3F800000#32) i = 1 :=
      (Cert.Sage.bcast_const_apply _ _ i).trans Cert.Sage.ofBits_one_f32
    unfold Cert.KernelIdeal.Chain.degree
    rw [Idealize.ShloMosaic.ValueIdx.maximumf_apply]
    exact (congrArg (max _) hone).trans_ne (Cert.Sage.max_one_ne_zero _)
  · -- the sum over the count: the same operations on both sides, over records with the same fields
    unfold Cert.KernelIdeal.Chain.sum128 Cert.KernelIdeal.Chain.degree Cert.KernelIdeal.Chain.dstB Cert.KernelIdeal.Chain.srcB
      Cert.KernelIdeal.Chain.srcRow Cert.KernelIdeal.Chain.dstRow
      Cert.ReferenceIdeal.RefValue.agg128 Cert.ReferenceIdeal.RefValue.sum128 Cert.ReferenceIdeal.RefValue.cnt
      Cert.ReferenceIdeal.RefValue.dstB Cert.ReferenceIdeal.RefValue.srcB
    rfl

end Cert.Proof.AggEq

end
-- ==== Proof.KernelValue.lean ====
/-
  The idealized kernel program's run, with its result named.

  Every weakly fair execution ends with the result array holding the three-layer network of the launch contents —
  written with the reference's spelling of the neighbourhood mean, which is this program's by the law of dividing
  by a count two ways — and with every argument array as launched.
-/
import proofs.«125802_j15118284882426_1_alg».proof.Proof.KernelRun
import proofs.«125802_j15118284882426_1_alg».proof.Proof.KernelChain
import proofs.«125802_j15118284882426_1_alg».proof.Proof.AggEq

noncomputable section

namespace Cert.Proof.KernelValue

open Idealize.ShloMosaic Idealize.ShloMosaic.TcCoe Idealize.SL.Sem

variable (m : (ℓ : Loc Cert.KernelIdeal.nD Cert.KernelIdeal.τ Cert.KernelIdeal.sig) → Buf (Elt Ideal) ℓ)
  (ρ : Dev Cert.KernelIdeal.nD → PrngReg)

/-- The network of the launch contents, the mean spelt as the reference spells it. -/
def out (c : Dev Cert.KernelIdeal.nD) : (⟨2, ![50000, 2]⟩ : Shape).Idx → EReal :=
  Cert.Sage.outAt (Cert.ReferenceIdeal.RefValue.agg96 (m ((c.tc : Thread Cert.KernelIdeal.nD Cert.KernelIdeal.τ).loc Cert.KernelIdeal.main_arg1))) (Cert.ReferenceIdeal.RefValue.agg128 (m ((c.tc : Thread Cert.KernelIdeal.nD Cert.KernelIdeal.τ).loc Cert.KernelIdeal.main_arg1)))
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))

/-- The last boundary's contents at the result buffer are that network: the chain's reading, then the two
    spellings of the mean identified. -/
theorem W6_out_ref (c : Dev Cert.KernelIdeal.nD) :
    Cert.KernelIdeal.Gen.W6 m ρ c (Proc.devRef .tc Cert.KernelIdeal.main_v50) = out m c := by
  refine (Cert.KernelIdeal.Chain.W6_out m ρ c).trans ?_
  unfold out
  rw [show Cert.KernelIdeal.Chain.agg96 (Cert.KernelIdeal.Chain.srcRow (m ((c.tc : Thread Cert.KernelIdeal.nD Cert.KernelIdeal.τ).loc Cert.KernelIdeal.main_arg1))) (Cert.KernelIdeal.Chain.dstRow (m ((c.tc : Thread Cert.KernelIdeal.nD Cert.KernelIdeal.τ).loc Cert.KernelIdeal.main_arg1)))
        (Cert.KernelIdeal.Chain.recip (Cert.KernelIdeal.Chain.dstRow (m ((c.tc : Thread Cert.KernelIdeal.nD Cert.KernelIdeal.τ).loc Cert.KernelIdeal.main_arg1)))) = Cert.ReferenceIdeal.RefValue.agg96 (m ((c.tc : Thread Cert.KernelIdeal.nD Cert.KernelIdeal.τ).loc Cert.KernelIdeal.main_arg1))
      from funext (Cert.Proof.AggEq.agg96_eq _),
    show Cert.KernelIdeal.Chain.agg128 (Cert.KernelIdeal.Chain.srcRow (m ((c.tc : Thread Cert.KernelIdeal.nD Cert.KernelIdeal.τ).loc Cert.KernelIdeal.main_arg1))) (Cert.KernelIdeal.Chain.dstRow (m ((c.tc : Thread Cert.KernelIdeal.nD Cert.KernelIdeal.τ).loc Cert.KernelIdeal.main_arg1)))
        (Cert.KernelIdeal.Chain.recip (Cert.KernelIdeal.Chain.dstRow (m ((c.tc : Thread Cert.KernelIdeal.nD Cert.KernelIdeal.τ).loc Cert.KernelIdeal.main_arg1)))) = Cert.ReferenceIdeal.RefValue.agg128 (m ((c.tc : Thread Cert.KernelIdeal.nD Cert.KernelIdeal.τ).loc Cert.KernelIdeal.main_arg1))
      from funext (Cert.Proof.AggEq.agg128_eq _)]

/-- The run re-posted with the result named. -/
theorem run : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread Cert.KernelIdeal.nD Cert.KernelIdeal.τ).loc Cert.KernelIdeal.main_v50) = out m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run (Cert.KernelIdeal.defs (F := Ideal)) _ _).mono (fun r h c => ⟨(h c).1.trans (W6_out_ref m ρ c), (h c).2⟩)
    (Cert.KernelIdeal.Gen.run_out (F := Ideal) m ρ)

end Cert.Proof.KernelValue

end
-- ==== Proof.lean ====
/-
  A three-layer graph network over 50000 nodes and 800000 edges: the tiled kernel program against the plain one.

  Each layer is relu (mean · Wl + x · Wr + b), where mean is, per node, the sum of its in-neighbours' features
  divided by max (in-degree, 1); a last product with Wc plus bc gives two logits per node. The kernel program
  computes each layer's dense part in a tiled region of ten blocks of 5000 rows and everything irregular (gather,
  scatter-add, the division) in host operations between the regions; it multiplies the sums by a reciprocal
  computed once where the reference divides. Over the extended reals:
    * a block of rows of a matrix product is the product of that block of rows (a layer's entry depends on its
      operands only through the entry's own row), so the ten blocks a region writes back are the layer of the
      whole arrays (RegionVal0/1/2);
    * a product into a zero accumulator and the host's dot product are the same sum over the inner index
      (LibPlainDot), and a change of float format is the identity;
    * x * (1 / c) = x / c for every extended real x when c is not zero, and a degree made at least one is not
      zero (MeanLaw, AggEq).
  So both programs end with the same function of their arguments (KernelValue, RefValue). The frames are the
  generated ones; the reference's is its run with the result dropped. Nothing here uses the finiteness of the inputs.
-/
import proofs.«125802_j15118284882426_1_alg».proof.Defs
import proofs.«125802_j15118284882426_1_alg».proof.Proof.Gen.Kernel
import proofs.«125802_j15118284882426_1_alg».proof.Proof.Gen.KernelIdeal
import proofs.«125802_j15118284882426_1_alg».proof.Proof.Gen.ReferenceIdeal
import proofs.«125802_j15118284882426_1_alg».proof.Proof.Gen.Pre_finite_inputs
import proofs.«125802_j15118284882426_1_alg».proof.Proof.FrameK
import proofs.«125802_j15118284882426_1_alg».proof.Proof.FrameKI
import proofs.«125802_j15118284882426_1_alg».proof.Proof.KernelValue
import proofs.«125802_j15118284882426_1_alg».proof.Proof.RefValue
import proofs.«125802_j15118284882426_1_alg».proof.Proof.Gen.ReferenceIdeal.Run
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end at the same network of arguments that agree. -/
theorem algebraic : Cert.algebraic_KernelIdeal_ReferenceIdeal := by
  intro m ρ m' ρ' _ hagree
  refine ⟨_, Cert.Proof.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.RefValue.ref_value, a0, a1, a2, a3, a4, a5, a6, a7, a8, a9, a10, a11, a12]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
